-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x5x2 : Shape := ⟨3, ![8, 5, 2]⟩
abbrev S1024x2 : Shape := ⟨2, ![1024, 2]⟩
abbrev S10x512 : Shape := ⟨2, ![10, 512]⟩
abbrev S1024x1024 : Shape := ⟨2, ![1024, 1024]⟩
abbrev S_ : Shape := ⟨0, ![]⟩

class Facts : Prop where
  bcast_S_S8x5x2 : S_.BroadcastsInDim S8x5x2 (![] : Fin 0 → Fin S8x5x2.rank)
  reducesTo_S8x5x2_S_d0_1_2 : S8x5x2.ReducesTo [0, 1, 2] S_
  h_S_ : 0 < S_.numel
  bcast_S_S1024x2 : S_.BroadcastsInDim S1024x2 (![] : Fin 0 → Fin S1024x2.rank)
  reducesTo_S1024x2_S_d0_1 : S1024x2.ReducesTo [0, 1] S_
  bcast_S_S10x512 : S_.BroadcastsInDim S10x512 (![] : Fin 0 → Fin S10x512.rank)
  reducesTo_S10x512_S_d0_1 : S10x512.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg3 : IVec S1024x1024 32) (main_v13 : IVec S_ 1) (main_v15 : IVec S1024x1024 1) (main_c_5 : IVec S_ 32) : IVec S_ 1 :=
  let main_v16 : IVec S1024x1024 32 := broadcastInDim S1024x1024 ![] bcast_S_S1024x1024 main_c_5
  let main_v17 : IVec S1024x1024 1 := cmpi .slt main_arg3 main_v16
  let main_v18 : IVec S1024x1024 1 := andi main_v15 main_v17
  let main_c_6 : IVec S_ 1 := constantI S_ 1 1#1
  let main_v19 : IVec S_ 1 := (fun x v => Host.reduce IntOp.andi x v reducesTo_S1024x1024_S_d0_1 h_S_) main_v18 main_c_6
  let main_v20 : IVec S_ 1 := andi main_v13 main_v19
  main_v20

def fn {F : FTy → Type} [FloatOps F] (main_arg0 : FVec F S8x5x2 .f32) (main_arg1 : FVec F S1024x2 .f32) (main_arg2 : FVec F S10x512 .f32) (main_arg3 : IVec S1024x1024 32) : IVec S_ 1 :=
  let main_v0 : FVec F S8x5x2 .f32 := Host.absf main_arg0
  let main_cst : FVec F S_ .f32 := constant S_ .f32 0x7F800000#32
  let main_v1 : FVec F S8x5x2 .f32 := broadcastInDim S8x5x2 ![] bcast_S_S8x5x2 main_cst
  let main_v2 : IVec S8x5x2 1 := cmpf .olt main_v0 main_v1
  let main_c : IVec S_ 1 := constantI S_ 1 1#1
  let main_v3 : IVec S_ 1 := (fun x v => Host.reduce IntOp.andi x v reducesTo_S8x5x2_S_d0_1_2 h_S_) main_v2 main_c
  let main_v4 : FVec F S1024x2 .f32 := Host.absf main_arg1
  let main_cst_0 : FVec F S_ .f32 := constant S_ .f32 0x7F800000#32
  let main_v5 : FVec F S1024x2 .f32 := broadcastInDim S1024x2 ![] bcast_S_S1024x2 main_cst_0
  let main_v6 : IVec S1024x2 1 := cmpf .olt main_v4 main_v5
  let main_c_1 : IVec S_ 1 := constantI S_ 1 1#1
  let main_v7 : IVec S_ 1 := (fun x v => Host.reduce IntOp.andi x v reducesTo_S1024x2_S_d0_1 h_S_) main_v6 main_c_1
  let main_v8 : IVec S_ 1 := andi main_v3 main_v7
  let main_v9 : FVec F S10x512 .f32 := Host.absf main_arg2
  let main_cst_2 : FVec F S_ .f32 := constant S_ .f32 0x7F800000#32
  let main_v10 : FVec F S10x512 .f32 := broadcastInDim S10x512 ![] bcast_S_S10x512 main_cst_2
  let main_v11 : IVec S10x512 1 := cmpf .olt main_v9 main_v10
  let main_c_3 : IVec S_ 1 := constantI S_ 1 1#1
  let main_v12 : IVec S_ 1 := (fun x v => Host.reduce IntOp.andi x v reducesTo_S10x512_S_d0_1 h_S_) main_v11 main_c_3
  let main_v13 : IVec S_ 1 := andi main_v8 main_v12
  let main_c_4 : IVec S_ 32 := constantI S_ 32 0#32
  let main_v14 : IVec S1024x1024 32 := broadcastInDim S1024x1024 ![] bcast_S_S1024x1024 main_c_4
  let main_v15 : IVec S1024x1024 1 := cmpi .sge main_arg3 main_v14
  let main_c_5 : IVec S_ 32 := constantI S_ 32 64#32
  fn_part1 (F := F) main_arg3 main_v13 main_v15 main_c_5
-- ==== Kernel.lean ====
abbrev S8x5x2 : Shape := ⟨3, ![8, 5, 2]⟩
abbrev S1024x2 : Shape := ⟨2, ![1024, 2]⟩
abbrev S10x512 : Shape := ⟨2, ![10, 512]⟩
abbrev S1024x1024 : Shape := ⟨2, ![1024, 1024]⟩
abbrev S8x1024x512 : Shape := ⟨3, ![8, 1024, 512]⟩
abbrev S1x1024x1x2 : Shape := ⟨4, ![1, 1024, 1, 2]⟩
abbrev S8x1x5x2 : Shape := ⟨4, ![8, 1, 5, 2]⟩
abbrev S8x1024x5x2 : Shape := ⟨4, ![8, 1024, 5, 2]⟩
abbrev S8x1024x10 : Shape := ⟨3, ![8, 1024, 10]⟩
abbrev S8192x10 : Shape := ⟨2, ![8192, 10]⟩
abbrev S8192x512 : Shape := ⟨2, ![8192, 512]⟩
abbrev S8x8x1024x64 : Shape := ⟨4, ![8, 8, 1024, 64]⟩
abbrev S8x8x1024x1024 : Shape := ⟨4, ![8, 8, 1024, 1024]⟩
abbrev S8x8x32x64 : Shape := ⟨4, ![8, 8, 32, 64]⟩
abbrev S32x1024 : Shape := ⟨2, ![32, 1024]⟩
abbrev S8x8x32x1024 : Shape := ⟨4, ![8, 8, 32, 1024]⟩
abbrev S32x8x8x64 : Shape := ⟨4, ![32, 8, 8, 64]⟩
abbrev S32x64x64 : Shape := ⟨3, ![32, 64, 64]⟩
abbrev S32x64x1024 : Shape := ⟨3, ![32, 64, 1024]⟩
abbrev S32x1x1024 : Shape := ⟨3, ![32, 1, 1024]⟩
abbrev S32x8x8x1024 : Shape := ⟨4, ![32, 8, 8, 1024]⟩

abbrev nBuf : Space → Nat
  | .hbm => 7
  | .vmem => 10
  | .smem => 0
  | _ => 0

abbrev bufTy : (tb : Table) → Fin (tcTables nBuf tb) → BufTy
  | .hbm, ⟨0, _⟩ => ⟨S8x5x2, .f32⟩
  | .hbm, ⟨1, _⟩ => ⟨S1024x2, .f32⟩
  | .hbm, ⟨2, _⟩ => ⟨S10x512, .f32⟩
  | .hbm, ⟨3, _⟩ => ⟨S1024x1024, .i32⟩
  | .hbm, ⟨4, _⟩ => ⟨S8x1024x512, .f32⟩
  | .hbm, ⟨5, _⟩ => ⟨S8x8x1024x64, .f32⟩
  | .hbm, ⟨6, _⟩ => ⟨S8x8x1024x1024, .f32⟩
  | .local _ .vmem, ⟨0, _⟩ => ⟨S8x5x2, .f32⟩
  | .local _ .vmem, ⟨1, _⟩ => ⟨S1024x2, .f32⟩
  | .local _ .vmem, ⟨2, _⟩ => ⟨S10x512, .f32⟩
  | .local _ .vmem, ⟨3, _⟩ => ⟨S8x1024x512, .f32⟩
  | .local _ .vmem, ⟨4, _⟩ => ⟨S8x8x32x64, .f32⟩
  | .local _ .vmem, ⟨5, _⟩ => ⟨S8x8x32x64, .f32⟩
  | .local _ .vmem, ⟨6, _⟩ => ⟨S32x1024, .i32⟩
  | .local _ .vmem, ⟨7, _⟩ => ⟨S32x1024, .i32⟩
  | .local _ .vmem, ⟨8, _⟩ => ⟨S8x8x32x1024, .f32⟩
  | .local _ .vmem, ⟨9, _⟩ => ⟨S8x8x32x1024, .f32⟩
  | _, _ => ⟨S8x5x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S8x5x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage1_0 : Fin 2 → Memref sig .tc .vmem S8x8x32x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x8x32x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S8x5x2_S8x5x2_0_0_0 : ∀ a, (![0, 0, 0] : Fin 3 → Nat) a + S8x5x2.size a ≤ S8x5x2.size a
  h_S8x5x2 : 0 < S8x5x2.numel
  inb_S1024x2_S1024x2_0_0 : ∀ a, (![0, 0] : Fin 2 → Nat) a + S1024x2.size a ≤ S1024x2.size a
  h_S1024x2 : 0 < S1024x2.numel
  shapeCasts_S1024x2_S1x1024x1x2 : S1024x2.ShapeCasts S1x1024x1x2
  shapeCasts_S8x5x2_S8x1x5x2 : S8x5x2.ShapeCasts S8x1x5x2
  broadcasts_S1x1024x1x2_S8x1024x5x2 : S1x1024x1x2.Broadcasts S8x1024x5x2
  broadcasts_S8x1x5x2_S8x1024x5x2 : S8x1x5x2.Broadcasts S8x1024x5x2
  shapeCasts_S8x1024x5x2_S8x1024x10 : S8x1024x5x2.ShapeCasts S8x1024x10
  shapeCasts_S8x1024x10_S8192x10 : S8x1024x10.ShapeCasts S8192x10
  inb_S10x512_S10x512_0_0 : ∀ a, (![0, 0] : Fin 2 → Nat) a + S10x512.size a ≤ S10x512.size a
  h_S10x512 : 0 < S10x512.numel
  shapeCasts_S8192x512_S8x1024x512 : S8192x512.ShapeCasts S8x1024x512
  inb_S8x1024x512_S8x1024x512_0_0_0 : ∀ a, (![0, 0, 0] : Fin 3 → Nat) a + S8x1024x512.size a ≤ S8x1024x512.size a
  h_S8x1024x512 : 0 < S8x1024x512.numel
  shapeCasts_S8x1024x512_S8x8x1024x64 : S8x1024x512.ShapeCasts S8x8x1024x64
  inb_S8x8x32x64_S8x8x32x64_0_0_0_0 : ∀ a, (![0, 0, 0, 0] : Fin 4 → Nat) a + S8x8x32x64.size a ≤ S8x8x32x64.size a
  h_S8x8x32x64 : 0 < S8x8x32x64.numel
  shapeCasts_S8x8x32x64_S8x8x32x64 : S8x8x32x64.ShapeCasts S8x8x32x64
  bitsLt_bf16_f32 : FTy.bits .bf16 < FTy.bits .f32
  inb_S32x1024_S32x1024_0_0 : ∀ a, (![0, 0] : Fin 2 → Nat) a + S32x1024.size a ≤ S32x1024.size a
  h_S32x1024 : 0 < S32x1024.numel
  transposes_S8x8x32x64_p2_0_1_3_S32x8x8x64 : S8x8x32x64.Transposes [2, 0, 1, 3] S32x8x8x64
  shapeCasts_S32x8x8x64_S32x64x64 : S32x8x8x64.ShapeCasts S32x64x64
  iota_S32x64x1024_d1_w32 : S32x64x1024.Iotas .tc 32 [1]
  shapeCasts_S32x1024_S32x1x1024 : S32x1024.ShapeCasts S32x1x1024
  broadcasts_S32x1x1024_S32x64x1024 : S32x1x1024.Broadcasts S32x64x1024
  natLt_1_32 : 1 < 32
  shapeCasts_S32x64x1024_S32x8x8x1024 : S32x64x1024.ShapeCasts S32x8x8x1024
  transposes_S32x8x8x1024_p1_2_0_3_S8x8x32x1024 : S32x8x8x1024.Transposes [1, 2, 0, 3] S8x8x32x1024
  inb_S8x8x32x1024_S8x8x32x1024_0_0_0_0 : ∀ a, (![0, 0, 0, 0] : Fin 4 → Nat) a + S8x8x32x1024.size a ≤ S8x8x32x1024.size a
  h_S8x8x32x1024 : 0 < S8x8x32x1024.numel
  dot_S8192x10_S10x512_S8192x512_1_0_0_1_n_n_wf : DotDims.WF S8192x10 S10x512 S8192x512 [1] [0] [0] [1] [] []
  dot_S32x64x64_S32x64x1024_S32x64x1024_2_1_1_2_0_0_wf : DotDims.WF S32x64x64 S32x64x1024 S32x64x1024 [2] [1] [1] [2] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x5x2.size a ≤ S8x5x2.size a
  hwx0_0 : ∀ i : grid0.Coords, EltTy.bits .f32 = 32 ∨ (Rect.block (s := S8x5x2) S8x5x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2.size a ≤ S1024x2.size a
  hwx0_1 : ∀ i : grid0.Coords, EltTy.bits .f32 = 32 ∨ (Rect.block (s := S1024x2) S1024x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x512.size a ≤ S10x512.size a
  hwx0_2 : ∀ i : grid0.Coords, EltTy.bits .f32 = 32 ∨ (Rect.block (s := S10x512) S10x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x1024x512.size a ≤ S8x1024x512.size a
  hwx0_3 : ∀ i : grid0.Coords, EltTy.bits .f32 = 32 ∨ (Rect.block (s := S8x1024x512) S8x1024x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x8x32x64.size a ≤ S8x8x1024x64.size a
  hwx1_0 : ∀ i : grid1.Coords, EltTy.bits .f32 = 32 ∨ (Rect.block (s := S8x8x1024x64) S8x8x32x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x1024.size a ≤ S1024x1024.size a
  hwx1_1 : ∀ i : grid1.Coords, EltTy.bits .i32 = 32 ∨ (Rect.block (s := S1024x1024) S32x1024.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x8x32x1024.size a ≤ S8x8x1024x1024.size a
  hwx1_2 : ∀ i : grid1.Coords, EltTy.bits .f32 = 32 ∨ (Rect.block (s := S8x8x1024x1024) S8x8x32x1024.size (cc1_transform_2 i) (hinb1_2 i)).WholeWords (EltTy.packing .f32)

variable [Facts₀]

def dot_S8192x10_S10x512_S8192x512_1_0_0_1_n_n : DotDims S8192x10 S10x512 S8192x512 where
  lhsContracting := [1]
  rhsContracting := [0]
  lhsNonContracting := [0]
  rhsNonContracting := [1]
  lhsBatch := []
  rhsBatch := []
  wf := dot_S8192x10_S10x512_S8192x512_1_0_0_1_n_n_wf
def dot_S32x64x64_S32x64x1024_S32x64x1024_2_1_1_2_0_0 : DotDims S32x64x64 S32x64x1024 S32x64x1024 where
  lhsContracting := [2]
  rhsContracting := [1]
  lhsNonContracting := [1]
  rhsNonContracting := [2]
  lhsBatch := [0]
  rhsBatch := [0]
  wf := dot_S32x64x64_S32x64x1024_S32x64x1024_2_1_1_2_0_0_wf

abbrev win0_0 : Pipeline.Window sig grid0 :=
  Pipeline.Window.ofSpec (Memref.whole main_arg0) S8x5x2.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x1024x512.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S8x8x32x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S32x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S8x8x32x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x5x2 : Shape := ⟨3, ![8, 5, 2]⟩
abbrev S1024x2 : Shape := ⟨2, ![1024, 2]⟩
abbrev S10x512 : Shape := ⟨2, ![10, 512]⟩
abbrev S1024x1024 : Shape := ⟨2, ![1024, 1024]⟩
abbrev S1x1024x1x2 : Shape := ⟨4, ![1, 1024, 1, 2]⟩
abbrev S8x1x5x2 : Shape := ⟨4, ![8, 1, 5, 2]⟩
abbrev S8x1024x5x2 : Shape := ⟨4, ![8, 1024, 5, 2]⟩
abbrev S8x1024x10 : Shape := ⟨3, ![8, 1024, 10]⟩
abbrev S8x1024x512 : Shape := ⟨3, ![8, 1024, 512]⟩
abbrev S8x8x1024x64 : Shape := ⟨4, ![8, 8, 1024, 64]⟩
abbrev S1x1x1024x1024 : Shape := ⟨4, ![1, 1, 1024, 1024]⟩
abbrev S8x8x1024x1024 : Shape := ⟨4, ![8, 8, 1024, 1024]⟩
abbrev S_ : Shape := ⟨0, ![]⟩
abbrev S8x8x1024x1024x1 : Shape := ⟨5, ![8, 8, 1024, 1024, 1]⟩
abbrev S1 : Shape := ⟨1, ![1]⟩
abbrev S1x1x1x1x1 : Shape := ⟨5, ![1, 1, 1, 1, 1]⟩

abbrev nBuf : Space → Nat
  | .hbm => 36
  | .vmem => 0
  | .smem => 0
  | _ => 0

abbrev bufTy : (tb : Table) → Fin (tcTables nBuf tb) → BufTy
  | .hbm, ⟨0, _⟩ => ⟨S8x5x2, .f32⟩
  | .hbm, ⟨1, _⟩ => ⟨S1024x2, .f32⟩
  | .hbm, ⟨2, _⟩ => ⟨S10x512, .f32⟩
  | .hbm, ⟨3, _⟩ => ⟨S1024x1024, .i32⟩
  | .hbm, ⟨4, _⟩ => ⟨S1x1024x1x2, .f32⟩
  | .hbm, ⟨5, _⟩ => ⟨S8x1x5x2, .f32⟩
  | .hbm, ⟨6, _⟩ => ⟨S8x1024x5x2, .f32⟩
  | .hbm, ⟨7, _⟩ => ⟨S8x1024x5x2, .f32⟩
  | .hbm, ⟨8, _⟩ => ⟨S8x1024x5x2, .f32⟩
  | .hbm, ⟨9, _⟩ => ⟨S8x1024x10, .f32⟩
  | .hbm, ⟨10, _⟩ => ⟨S8x1024x512, .f32⟩
  | .hbm, ⟨11, _⟩ => ⟨S8x8x1024x64, .f32⟩
  | .hbm, ⟨12, _⟩ => ⟨S1x1x1024x1024, .i32⟩
  | .hbm, ⟨13, _⟩ => ⟨S8x8x1024x1024, .i32⟩
  | .hbm, ⟨14, _⟩ => ⟨S_, .i32⟩
  | .hbm, ⟨15, _⟩ => ⟨S8x8x1024x1024, .i32⟩
  | .hbm, ⟨16, _⟩ => ⟨S8x8x1024x1024, .i1⟩
  | .hbm, ⟨17, _⟩ => ⟨S_, .i32⟩
  | .hbm, ⟨18, _⟩ => ⟨S8x8x1024x1024, .i32⟩
  | .hbm, ⟨19, _⟩ => ⟨S8x8x1024x1024, .i32⟩
  | .hbm, ⟨20, _⟩ => ⟨S8x8x1024x1024, .i32⟩
  | .hbm, ⟨21, _⟩ => ⟨S8x8x1024x1024x1, .i32⟩
  | .hbm, ⟨22, _⟩ => ⟨S1, .i32⟩
  | .hbm, ⟨23, _⟩ => ⟨S_, .i32⟩
  | .hbm, ⟨24, _⟩ => ⟨S8x8x1024x1024x1, .i32⟩
  | .hbm, ⟨25, _⟩ => ⟨S8x8x1024x1024x1, .i1⟩
  | .hbm, ⟨26, _⟩ => ⟨S1x1x1x1x1, .i32⟩
  | .hbm, ⟨27, _⟩ => ⟨S8x8x1024x1024x1, .i32⟩
  | .hbm, ⟨28, _⟩ => ⟨S8x8x1024x1024x1, .i1⟩
  | .hbm, ⟨29, _⟩ => ⟨S8x8x1024x1024x1, .i1⟩
  | .hbm, ⟨30, _⟩ => ⟨S_, .i1⟩
  | .hbm, ⟨31, _⟩ => ⟨S8x8x1024x1024, .i1⟩
  | .hbm, ⟨32, _⟩ => ⟨S8x8x1024x1024, .f32⟩
  | .hbm, ⟨33, _⟩ => ⟨S_, .f32⟩
  | .hbm, ⟨34, _⟩ => ⟨S8x8x1024x1024, .f32⟩
  | .hbm, ⟨35, _⟩ => ⟨S8x8x1024x1024, .f32⟩
  | _, _ => ⟨S8x5x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_cst : Ref sig .tc := ⟨.hbm, 33, rfl⟩
abbrev main_call0_v14 : Ref sig .tc := ⟨.hbm, 34, rfl⟩
abbrev main_v10 : Ref sig .tc := ⟨.hbm, 35, rfl⟩

abbrev nD : Nat := 1
abbrev τ : Topo := Topo.v7x

variable {F : FTy → Type} [FloatOps F]

class Facts₀ : Prop where
  bcast_S1024x2_S1x1024x1x2_1_3 : S1024x2.BroadcastsInDim S1x1024x1x2 (![1, 3] : Fin 2 → Fin S1x1024x1x2.rank)
  bcast_S8x5x2_S8x1x5x2_0_2_3 : S8x5x2.BroadcastsInDim S8x1x5x2 (![0, 2, 3] : Fin 3 → Fin S8x1x5x2.rank)
  bcast_S1x1024x1x2_S8x1024x5x2_0_1_2_3 : S1x1024x1x2.BroadcastsInDim S8x1024x5x2 (![0, 1, 2, 3] : Fin 4 → Fin S8x1024x5x2.rank)
  bcast_S8x1x5x2_S8x1024x5x2_0_1_2_3 : S8x1x5x2.BroadcastsInDim S8x1024x5x2 (![0, 1, 2, 3] : Fin 4 → Fin S8x1024x5x2.rank)
  shapeCasts_S8x1024x5x2_S8x1024x10 : S8x1024x5x2.ShapeCasts S8x1024x10
  shapeCasts_S8x1024x512_S8x8x1024x64 : S8x1024x512.ShapeCasts S8x8x1024x64
  bcast_S1024x1024_S1x1x1024x1024_2_3 : S1024x1024.BroadcastsInDim S1x1x1024x1024 (![2, 3] : Fin 2 → Fin S1x1x1024x1024.rank)
  bcast_S1x1x1024x1024_S8x8x1024x1024_0_1_2_3 : S1x1x1024x1024.BroadcastsInDim S8x8x1024x1024 (![0, 1, 2, 3] : Fin 4 → Fin S8x8x1024x1024.rank)
  bcast_S_S8x8x1024x1024 : S_.BroadcastsInDim S8x8x1024x1024 (![] : Fin 0 → Fin S8x8x1024x1024.rank)
  shapeCasts_S8x8x1024x1024_S8x8x1024x1024x1 : S8x8x1024x1024.ShapeCasts S8x8x1024x1024x1
  bcast_S_S8x8x1024x1024x1 : S_.BroadcastsInDim S8x8x1024x1024x1 (![] : Fin 0 → Fin S8x8x1024x1024x1.rank)
  bcast_S1_S1x1x1x1x1_4 : S1.BroadcastsInDim S1x1x1x1x1 (![4] : Fin 1 → Fin S1x1x1x1x1.rank)
  bcast_S1x1x1x1x1_S8x8x1024x1024x1_0_1_2_3_4 : S1x1x1x1x1.BroadcastsInDim S8x8x1024x1024x1 (![0, 1, 2, 3, 4] : Fin 5 → Fin S8x8x1024x1024x1.rank)
  reducesTo_S8x8x1024x1024x1_S8x8x1024x1024_d4 : S8x8x1024x1024x1.ReducesTo [4] S8x8x1024x1024
  h_S_ : 0 < S_.numel
  dot_S8x1024x10_S10x512_S8x1024x512_2_0_01_1_n_n_wf : DotDims.WF S8x1024x10 S10x512 S8x1024x512 [2] [0] [0, 1] [1] [] []
  gather_S8x8x1024x64_S8x8x1024x1024x1_S8x8x1024x1024_n_3_012_012_3_4_1111_wf : GatherDims.WF S8x8x1024x64 S8x8x1024x1024x1 S8x8x1024x1024 [] [3] [0, 1, 2] [3] [0, 1, 2] 4 ![1, 1, 1, 1]

variable [Facts₀]

def dot_S8x1024x10_S10x512_S8x1024x512_2_0_01_1_n_n : DotDims S8x1024x10 S10x512 S8x1024x512 where
  lhsContracting := [2]
  rhsContracting := [0]
  lhsNonContracting := [0, 1]
  rhsNonContracting := [1]
  lhsBatch := []
  rhsBatch := []
  wf := dot_S8x1024x10_S10x512_S8x1024x512_2_0_01_1_n_n_wf
def gather_S8x8x1024x64_S8x8x1024x1024x1_S8x8x1024x1024_n_3_012_012_3_4_1111 : GatherDims S8x8x1024x64 S8x8x1024x1024x1 S8x8x1024x1024 where
  offsetDims := []
  collapsedSliceDims := [3]
  operandBatchingDims := [0, 1, 2]
  startIndicesBatchingDims := [0, 1, 2]
  startIndexMap := [3]
  indexVectorDim := 4
  sliceSizes := ![1, 1, 1, 1]
  wf := gather_S8x8x1024x64_S8x8x1024x1024x1_S8x8x1024x1024_n_3_012_012_3_4_1111_wf

class Facts : Prop extends Facts₀ where

variable [Facts]
-- ==== Proof.LibTRefCast.lean ====
/-
  A VALUE STORED THROUGH A TYPED REFERENCE AND READ BACK IS ITSELF.

  The operations of a module-local function (a `func.call` of the program: jnp.take's `_take`, jnp.where's `_where`, …) are
  built over typed references, and each moves its function's operands and result between the value's type and the
  buffer's own along the reference's type equation (`TRef.ofBuf`, `TRef.toBuf`). Read back after a run of such
  operations (the `*_result` lemmas, `after_results`, `after_results_simp`), every intermediate value therefore sits
  under a pair `x.ofBuf (x.toBuf v)` of the SAME reference, and the term, though equal to the plain composition of the
  operations' functions, is not syntactically so; closing it by `rfl` sends the elaborator through every transport.
  `simp only [TRef.ofBuf_toBuf]` removes the pairs without evaluating any buffer type; what is left is the outermost
  `toBuf` and the `ofBuf` of each buffer the stretch reads, each the identity at a literal reference by `rfl`.
-/
import Idealize.ShloMosaic.Lib.StableHlo

namespace Idealize.ShloMosaic.StableHlo.TRef

variable {sig : RefSig} {Val : EltTy → Type} {T : BufTy}

/-- Storing a value at a typed reference's buffer type and reading it back at the value's type gives the value. -/
theorem ofBuf_toBuf (x : TRef sig T) (v : T.Contents Val) : x.ofBuf (x.toBuf v) = v := by
  obtain ⟨r, h, _, _⟩ := x
  subst h
  rfl

/-- Reading a buffer's contents at the value's type and storing them back gives the contents. -/
theorem toBuf_ofBuf (x : TRef sig T) (v : x.ref.ty.Contents Val) : x.toBuf (x.ofBuf v) = v := by
  obtain ⟨r, h, _, _⟩ := x
  subst h
  rfl

end Idealize.ShloMosaic.StableHlo.TRef
-- ==== Proof.Spec.lean ====
/-
  WHAT BOTH PROGRAMS COMPUTE, as one function of an array `a` of shape [8, 8, 1024, 64] and a table `dist` of 32-bit
  words of shape [1024, 1024] whose entries, read signed, lie in [0, 64): the array of shape [8, 8, 1024, 1024] whose
  entry (b, h, n, j) is `a` at (b, h, n, dist[n, j]). The kernel reaches it as the sum over the 64 buckets k of
  a[b, h, n, k] times the indicator of dist[n, j] = k; the reference by a gather along the last axis.
-/
import Idealize.ShloMosaic.PureOps.Ideal
import Idealize.ShloMosaic.Lib.ValueIdx

noncomputable section

namespace Cert.Spec

open Idealize.ShloMosaic Idealize.ShloMosaic.ValueIdx

/-- Every entry of the table, read as a signed integer, is a bucket number: at least 0 and below 64. -/
def InRange (dist : (⟨2, ![1024, 1024]⟩ : Shape).Idx → BitVec 32) : Prop :=
  ∀ (n j : Fin 1024), 0 ≤ (dist (ix2 n j)).toInt ∧ (dist (ix2 n j)).toInt < 64

/-- The bucket the table names at row `n`, column `j`. -/
def bucket (dist : (⟨2, ![1024, 1024]⟩ : Shape).Idx → BitVec 32) (h : InRange dist) (n j : Fin 1024) : Fin 64 :=
  ⟨(dist (ix2 n j)).toInt.toNat, by have := h n j; omega⟩

/-- Entry (b, h, n, j) of the result: `a` at (b, h, n, bucket n j). -/
def take {α : Type} (a : (⟨4, ![8, 8, 1024, 64]⟩ : Shape).Idx → α) (dist : (⟨2, ![1024, 1024]⟩ : Shape).Idx → BitVec 32)
    (h : InRange dist) : (⟨4, ![8, 8, 1024, 1024]⟩ : Shape).Idx → α :=
  fun i => a (ix4 (n0 := 8) (n1 := 8) (n2 := 1024) (n3 := 64) (i 0) (i 1) (i 2) (bucket dist h (i 2) (i 3)))

theorem take_apply {α : Type} (a : (⟨4, ![8, 8, 1024, 64]⟩ : Shape).Idx → α)
    (dist : (⟨2, ![1024, 1024]⟩ : Shape).Idx → BitVec 32) (h : InRange dist) (b g : Fin 8) (n j : Fin 1024) :
    take a dist h (ix4 b g n j) = a (ix4 b g n (bucket dist h n j)) := rfl

/-- A sum over the 64 buckets of `x k` times a weight that is 1 at the bucket `d` and 0 elsewhere is `x d`: on the
    extended reals `x · 1 = x` and `x · 0 = 0` whatever `x` is, so no finiteness is needed. -/
theorem sum_indicator (x w : Fin 64 → EReal) (d : Fin 64) (h1 : w d = 1) (h0 : ∀ k, k ≠ d → w k = 0) :
    ∑ k : Fin 64, x k * w k = x d := by
  rw [Finset.sum_eq_single d (fun k _ hk => by rw [h0 k hk, mul_zero]) (fun hd => absurd (Finset.mem_univ d) hd), h1, mul_one]

end Cert.Spec

end
-- ==== Proof.LibReduceAnd.lean ====
/-
  A REDUCTION BY `and` OF ONES IS ONE.

  A one-operand `stablehlo.reduce` of a one-bit array by `and`, from an initial value that is 1, is 1 at every result
  index all of whose contributing operand elements are 1 — the converse of the library's reading of `jnp.all`
  (Lib/ReduceAll.lean), which goes from the result to the elements.
-/
import Idealize.ShloMosaic.Lib.ReduceAll

namespace Idealize.ShloMosaic

namespace IntOp

/-- A left fold by `and` from 1 over one-bit words that are all 1 is 1. -/
theorem foldl_andi_of_all {ι : Type} (f : ι → BitVec 1) :
    ∀ (l : List ι), (∀ n ∈ l, f n = 1#1) → l.foldl (fun r n => andi r (f n)) 1#1 = 1#1
  | [], _ => rfl
  | a :: l, h => by
    rw [List.foldl_cons, h a (List.mem_cons_self ..)]
    exact foldl_andi_of_all f l fun n hn => h n (List.mem_cons_of_mem _ hn)

end IntOp

namespace Host

variable {s t u : Shape} {axes : List (Fin s.rank)}

/-- A `stablehlo.reduce` by `and` from an initial 1 is 1 at `j` when every operand element that reduces into `j` is 1. -/
theorem reduce_andi_of_all (x : s.Idx → BitVec 1) (init : u.Idx → BitVec 1) (h : s.ReducesTo axes t) (hu : 0 < u.numel)
    (j : t.Idx) (hinit : init (Shape.Idx.first hu) = 1#1) (hx : ∀ i : s.Idx, h.drop i = j → x i = 1#1) :
    Host.reduce IntOp.andi x init h hu j = 1#1 := by
  rw [Host.reduce_eq_foldl, hinit]
  refine IntOp.foldl_andi_of_all x _ fun i hi => ?_
  rw [List.mem_filter] at hi
  exact hx i (by simpa using hi.2)

end Host

end Idealize.ShloMosaic
-- ==== Proof.LibTakeAlongLast.lean ====
/-
  STABLEHLO'S BATCHED GATHER ALONG THE LAST AXIS, read at an index.

  `jnp.take_along_axis(x, idx, axis=-1)` of an array `x : [B, H, N, K]` at integer indices `idx : [B, H, N, M]`
  lowers to a `stablehlo.gather` of `x` at the start indices `idx` reshaped to `[B, H, N, M, 1]`, with
  offset_dims `[]`, collapsed_slice_dims `[3]`, operand_batching_dims `[0, 1, 2]`,
  start_indices_batching_dims `[0, 1, 2]`, start_index_map `[3]`, index_vector_dim 4 and slice_sizes
  `[1, 1, 1, 1]`. This file builds that record from the five sizes (`lastAxisDims`) and reads the operation at an
  index (`gather_lastAxis_apply`): result element `(b, g, n, m)` is `x` at `(b, g, n, k)`, where `k` is the
  start index `idx[b, g, n, m, 0]` read SIGNED and CLAMPED into `[0, K − 1]`. The three leading axes are batching
  axes, so there the operand's coordinate is the result's own; the last axis is collapsed and is the only one the
  start index addresses; no axis is an offset axis.
-/
import Idealize.ShloMosaic.PureOps.Ideal
import Idealize.ShloMosaic.Lib.ValueIdx

noncomputable section

namespace Idealize.ShloMosaic.TakeAlongLast

open Idealize.ShloMosaic Idealize.ShloMosaic.ValueIdx

/-- The well-formedness conditions of those dimension numbers, decided on a program's literal sizes. -/
abbrev LastAxisWF (B H N K M : Nat) : Prop :=
  GatherDims.WF ⟨4, ![B, H, N, K]⟩ ⟨5, ![B, H, N, M, 1]⟩ ⟨4, ![B, H, N, M]⟩ [] [3] [0, 1, 2] [3] [0, 1, 2] 4 ![1, 1, 1, 1]

/-- The dimension numbers of a gather along the last axis of `[B, H, N, K]` at start indices `[B, H, N, M, 1]`. -/
abbrev lastAxisDims (B H N K M : Nat) (wf : LastAxisWF B H N K M) :
    GatherDims ⟨4, ![B, H, N, K]⟩ ⟨5, ![B, H, N, M, 1]⟩ ⟨4, ![B, H, N, M]⟩ where
  offsetDims := []
  collapsedSliceDims := [3]
  operandBatchingDims := [0, 1, 2]
  startIndicesBatchingDims := [0, 1, 2]
  startIndexMap := [3]
  indexVectorDim := 4
  sliceSizes := ![1, 1, 1, 1]
  wf := wf

section
variable {α : Type} {B H N K M w : Nat} (wf : LastAxisWF B H N K M)

/-- Each operand axis is collapsed (the last) or batching (the first three), so none carries an offset coordinate. -/
theorem lastAxis_offCoord (y : (⟨4, ![B, H, N, M]⟩ : Shape).Idx) (a : Fin 4) :
    (lastAxisDims B H N K M wf).offCoord y a = 0 := by
  apply GatherDims.offCoord_eq_zero
  intro hmem
  obtain ⟨hnc, hnb⟩ := (GatherDims.mem_sKept (lastAxisDims B H N K M wf) a).mp hmem
  have hcases : ∀ c : Fin 4, c ∈ ([3] : List (Fin 4)) ∨ c ∈ ([0, 1, 2] : List (Fin 4)) := by decide
  exact (hcases a).elim hnc hnb

/-- On a batching axis the slice starts at 0 and the batching coordinate is the result's coordinate on the same
    axis: the three cases, written over the axis as a literal. -/
theorem lastAxis_batch0 (idx : IVec ⟨5, ![B, H, N, M, 1]⟩ w) (b : Fin B) (g : Fin H) (n : Fin N) (m : Fin M) :
    (lastAxisDims B H N K M wf).start (ix4 b g n m) idx 0 + (lastAxisDims B H N K M wf).batchCoord (ix4 b g n m) 0
      = b.val := by
  rw [GatherDims.start_batching _ _ _ _ (by decide : (0 : Fin 4) ∈ ([0, 1, 2] : List (Fin 4))), Nat.zero_add]
  unfold GatherDims.batchCoord
  rw [dif_pos (by decide : (0 : Fin 4) ∈ ([0, 1, 2] : List (Fin 4)))]
  rfl

theorem lastAxis_batch1 (idx : IVec ⟨5, ![B, H, N, M, 1]⟩ w) (b : Fin B) (g : Fin H) (n : Fin N) (m : Fin M) :
    (lastAxisDims B H N K M wf).start (ix4 b g n m) idx 1 + (lastAxisDims B H N K M wf).batchCoord (ix4 b g n m) 1
      = g.val := by
  rw [GatherDims.start_batching _ _ _ _ (by decide : (1 : Fin 4) ∈ ([0, 1, 2] : List (Fin 4))), Nat.zero_add]
  unfold GatherDims.batchCoord
  rw [dif_pos (by decide : (1 : Fin 4) ∈ ([0, 1, 2] : List (Fin 4)))]
  rfl

theorem lastAxis_batch2 (idx : IVec ⟨5, ![B, H, N, M, 1]⟩ w) (b : Fin B) (g : Fin H) (n : Fin N) (m : Fin M) :
    (lastAxisDims B H N K M wf).start (ix4 b g n m) idx 2 + (lastAxisDims B H N K M wf).batchCoord (ix4 b g n m) 2
      = n.val := by
  rw [GatherDims.start_batching _ _ _ _ (by decide : (2 : Fin 4) ∈ ([0, 1, 2] : List (Fin 4))), Nat.zero_add]
  unfold GatherDims.batchCoord
  rw [dif_pos (by decide : (2 : Fin 4) ∈ ([0, 1, 2] : List (Fin 4)))]
  rfl

/-- The one start-index component of result element `(b, g, n, m)` is read at `(b, g, n, m, 0)`. -/
theorem lastAxis_siIdx (b : Fin B) (g : Fin H) (n : Fin N) (m : Fin M)
    (c : Fin (lastAxisDims B H N K M wf).startIndexMap.length) :
    (lastAxisDims B H N K M wf).siIdx (ix4 b g n m) c = ix5 b g n m (0 : Fin 1) := by
  have hc : c.val = 0 := by have := c.isLt; simp only [List.length_singleton] at this; omega
  funext a
  refine Fin.ext ?_
  match a with
  | ⟨0, _⟩ => rfl
  | ⟨1, _⟩ => rfl
  | ⟨2, _⟩ => rfl
  | ⟨3, _⟩ => rfl
  | ⟨4, _⟩ => exact hc

/-- On the last axis the slice starts at the signed start index clamped into `[0, K − 1]`, and nothing is added. -/
theorem lastAxis_last (idx : IVec ⟨5, ![B, H, N, M, 1]⟩ w) (b : Fin B) (g : Fin H) (n : Fin N) (m : Fin M) :
    (lastAxisDims B H N K M wf).start (ix4 b g n m) idx 3 + (lastAxisDims B H N K M wf).batchCoord (ix4 b g n m) 3
      = min (idx (ix5 b g n m (0 : Fin 1))).toInt.toNat (K - 1) := by
  rw [GatherDims.batchCoord_eq_zero _ _ _ (by decide : (3 : Fin 4) ∉ ([0, 1, 2] : List (Fin 4))), Nat.add_zero]
  unfold GatherDims.start
  rw [dif_pos (List.mem_singleton.mpr rfl : (3 : Fin 4) ∈ (lastAxisDims B H N K M wf).startIndexMap), lastAxis_siIdx]
  rfl

/-- THE GATHER READ AT `(b, g, n, m)`: the operand at `(b, g, n, k)`, `k` the start index `idx[b, g, n, m, 0]`
    read signed and clamped into `[0, K − 1]`. -/
theorem gather_lastAxis_apply (hK : 0 < K) (x : (⟨4, ![B, H, N, K]⟩ : Shape).Idx → α)
    (idx : IVec ⟨5, ![B, H, N, M, 1]⟩ w) (b : Fin B) (g : Fin H) (n : Fin N) (m : Fin M) :
    Host.gather (lastAxisDims B H N K M wf) x idx (ix4 b g n m)
      = x (ix4 b g n ⟨min (idx (ix5 b g n m (0 : Fin 1))).toInt.toNat (K - 1), by omega⟩) := by
  unfold Host.gather
  congr 1
  funext a
  refine Fin.ext ?_
  show (lastAxisDims B H N K M wf).start (ix4 b g n m) idx a + (lastAxisDims B H N K M wf).batchCoord (ix4 b g n m) a
    + (lastAxisDims B H N K M wf).offCoord (ix4 b g n m) a = _
  rw [lastAxis_offCoord, Nat.add_zero]
  match a with
  | ⟨0, _⟩ => exact lastAxis_batch0 wf idx b g n m
  | ⟨1, _⟩ => exact lastAxis_batch1 wf idx b g n m
  | ⟨2, _⟩ => exact lastAxis_batch2 wf idx b g n m
  | ⟨3, _⟩ => exact lastAxis_last wf idx b g n m

end

end Idealize.ShloMosaic.TakeAlongLast

end
-- ==== Proof.RefTake.lean ====
/-
  THE REFERENCE'S RESULT IS THE SELECTION. jnp.take_along_axis along the last axis: negative indices are moved up by 64,
  the moved index is tested against [0, 63], the array is gathered at the moved index clamped into range, and a NaN fills the
  entries whose test fails. For a table whose entries are bucket numbers nothing is moved, every test holds and the clamp
  does nothing, so entry (b, g, n, j) of the result is the array at (b, g, n, dist[n, j]).
-/
import proofs.«425957_j10582799417497_1_alg».proof.Proof.RefRead
import proofs.«425957_j10582799417497_1_alg».proof.Proof.Spec
import proofs.«425957_j10582799417497_1_alg».proof.Proof.LibReduceAnd
import proofs.«425957_j10582799417497_1_alg».proof.Proof.LibTakeAlongLast

noncomputable section

namespace Cert.ReferenceIdeal.Take

open Cert.ReferenceIdeal Cert.ReferenceIdeal.Gen Idealize.ShloMosaic Idealize.ShloMosaic.TcCoe Idealize.ShloMosaic.ValueIdx

/-! ## Signed compares of a word in [0, 64) against the constants 0 and 63 -/

/-- A word that reads as a non-negative integer is not below 0. -/
theorem cmpi_slt_zero {d : BitVec 32} (h0 : 0 ≤ d.toInt) : IntOp.cmpi .slt d 0#32 = 0#1 := by
  show BitVec.ofBool (d.slt 0#32) = 0#1
  rw [BitVec.slt_eq_decide, BitVec.toInt_zero, decide_eq_false (by omega)]
  rfl

/-- … and is at least 0. -/
theorem cmpi_sge_zero {d : BitVec 32} (h0 : 0 ≤ d.toInt) : IntOp.cmpi .sge d 0#32 = 1#1 := by
  show BitVec.ofBool ((0#32).sle d) = 1#1
  rw [BitVec.sle_eq_decide, BitVec.toInt_zero, decide_eq_true h0]
  rfl

/-- A word that reads as an integer below 64 is at most 63. -/
theorem cmpi_sle_63 {d : BitVec 32} (h1 : d.toInt < 64) : IntOp.cmpi .sle d 63#32 = 1#1 := by
  show BitVec.ofBool (d.sle 63#32) = 1#1
  have h63 : (63#32 : BitVec 32).toInt = 63 := by decide
  rw [BitVec.sle_eq_decide, h63, decide_eq_true (by omega)]
  rfl

/-! ## The index table through the callee, stage by stage -/

section
variable (x3 : (⟨S1024x1024, .i32⟩ : BufTy).Contents (Elt Ideal))

/-- The table broadcast over the two leading axes: entry (b, g, n, j) is dist[n, j]. -/
theorem v9_at (b g : Fin 8) (n j : Fin 1024) :
    ReadP.val_main_v9 (F := Ideal) x3 (ix4 b g n j) = x3 (ix2 n j) := by
  rw [ReadP.val_main_v9_apply, ReadP.val_main_v8_apply]
  congr 1
  funext a
  refine Fin.ext ?_
  match a with
  | ⟨0, _⟩ => rfl
  | ⟨1, _⟩ => rfl

/-- A bucket number is not negative, so the "move negative indices up by 64" select leaves it alone. -/
theorem v4_at (h : Cert.Spec.InRange x3) (b g : Fin 8) (n j : Fin 1024) :
    ReadP.val_main_call0_v4 (F := Ideal) x3 (ix4 b g n j) = x3 (ix2 n j) := by
  rw [ReadP.val_main_call0_v4_apply, ReadP.val_main_call0_v1_apply, v9_at, ReadP.val_main_call0_v0_apply,
    ReadP.val_main_call0_c_apply, cmpi_slt_zero (h n j).1, select_zero]

/-- The reshape to a trailing axis of extent 1 reads (b, g, n, j, 0) at (b, g, n, j). -/
theorem idx5_at (b g : Fin 8) (n j : Fin 1024) (e : Fin 1) :
    ReadP.idx_main_call0_v5 (ix5 b g n j e) = ix4 b g n j := by
  have hb := b.isLt
  have hg := g.isLt
  have hn := n.isLt
  have hj := j.isLt
  have he := e.isLt
  funext a
  refine Fin.ext ?_
  match a with
  | ⟨0, _⟩ =>
    show ((((b.val * 8 + g.val) * 1024 + n.val) * 1024 + j.val) * 1 + e.val) / 8388608 = b.val
    omega
  | ⟨1, _⟩ =>
    show ((((b.val * 8 + g.val) * 1024 + n.val) * 1024 + j.val) * 1 + e.val) / 1048576 % 8 = g.val
    omega
  | ⟨2, _⟩ =>
    show ((((b.val * 8 + g.val) * 1024 + n.val) * 1024 + j.val) * 1 + e.val) / 1024 % 1024 = n.val
    omega
  | ⟨3, _⟩ =>
    show ((((b.val * 8 + g.val) * 1024 + n.val) * 1024 + j.val) * 1 + e.val) % 1024 = j.val
    omega

/-- The start indices the gather reads: entry (b, g, n, j, 0) is dist[n, j]. -/
theorem v5_at (h : Cert.Spec.InRange x3) (b g : Fin 8) (n j : Fin 1024) (e : Fin 1) :
    ReadP.val_main_call0_v5 (F := Ideal) x3 (ix5 b g n j e) = x3 (ix2 n j) := by
  rw [ReadP.val_main_call0_v5_apply, idx5_at, v4_at x3 h]

/-- The range test 0 ≤ index ≤ 63 holds at every entry. -/
theorem v11_at (h : Cert.Spec.InRange x3) (i : S8x8x1024x1024x1.Idx) :
    ReadP.val_main_call0_v11 (F := Ideal) x3 i = 1#1 := by
  obtain ⟨b, g, n, j, e, rfl⟩ : ∃ (b g : Fin 8) (n j : Fin 1024) (e : Fin 1), i = ix5 b g n j e :=
    ⟨i 0, i 1, i 2, i 3, i 4, eq_ix5 i⟩
  rw [ReadP.val_main_call0_v11_apply, ReadP.val_main_call0_v7_apply, ReadP.val_main_call0_v10_apply, v5_at x3 h,
    ReadP.val_main_call0_v6_apply, ReadP.val_main_call0_c_2_apply, ReadP.val_main_call0_v9_apply,
    ReadP.val_main_call0_v8_apply, ReadP.val_main_call0_c_1_apply, cmpi_sge_zero (h n j).1, cmpi_sle_63 (h n j).2]
  rfl

/-- So its conjunction over the trailing axis holds at every entry: no entry is filled with the NaN. -/
theorem v12_at (h : Cert.Spec.InRange x3) (i : S8x8x1024x1024.Idx) :
    ReadP.val_main_call0_v12 (F := Ideal) x3 i = 1#1 := by
  unfold ReadP.val_main_call0_v12
  exact Host.reduce_andi_of_all _ _ _ _ i rfl (fun k _ => v11_at x3 h k)

end

/-! ## The gather -/

/-- The gather reads the reshaped product at (b, g, n, dist[n, j]): the clamp into [0, 63] does nothing to a bucket number. -/
theorem v13_at (x0 : (⟨S8x5x2, .f32⟩ : BufTy).Contents (Elt Ideal)) (x1 : (⟨S1024x2, .f32⟩ : BufTy).Contents (Elt Ideal))
    (x2 : (⟨S10x512, .f32⟩ : BufTy).Contents (Elt Ideal)) (x3 : (⟨S1024x1024, .i32⟩ : BufTy).Contents (Elt Ideal))
    (h : Cert.Spec.InRange x3) (b g : Fin 8) (n j : Fin 1024) :
    ReadP.val_main_call0_v13 (F := Ideal) x0 x1 x2 x3 (ix4 b g n j)
      = ReadP.val_main_v7 (F := Ideal) x0 x1 x2 (ix4 b g n (Cert.Spec.bucket x3 h n j)) := by
  unfold ReadP.val_main_call0_v13
  have hwf : TakeAlongLast.LastAxisWF 8 8 1024 64 1024 :=
    gather_S8x8x1024x64_S8x8x1024x1024x1_S8x8x1024x1024_n_3_012_012_3_4_1111.wf
  have hrec : gather_S8x8x1024x64_S8x8x1024x1024x1_S8x8x1024x1024_n_3_012_012_3_4_1111
      = TakeAlongLast.lastAxisDims 8 8 1024 64 1024 hwf := rfl
  rw [hrec, TakeAlongLast.gather_lastAxis_apply hwf (by decide : 0 < 64)]
  congr 1
  funext a
  refine Fin.ext ?_
  match a with
  | ⟨0, _⟩ => rfl
  | ⟨1, _⟩ => rfl
  | ⟨2, _⟩ => rfl
  | ⟨3, _⟩ =>
    show min (ReadP.val_main_call0_v5 (F := Ideal) x3 (ix5 b g n j (0 : Fin 1))).toInt.toNat (64 - 1)
      = (x3 (ix2 n j)).toInt.toNat
    rw [v5_at x3 h]
    have := h n j
    omega

/-- Under the index range, the reference's result stage is the selection from its own reshaped product `val_main_v7`. -/
theorem result_eq_take (x0 : (⟨S8x5x2, .f32⟩ : BufTy).Contents (Elt Ideal)) (x1 : (⟨S1024x2, .f32⟩ : BufTy).Contents (Elt Ideal))
    (x2 : (⟨S10x512, .f32⟩ : BufTy).Contents (Elt Ideal)) (x3 : (⟨S1024x1024, .i32⟩ : BufTy).Contents (Elt Ideal))
    (h : Cert.Spec.InRange x3) :
    ReadP.val_main_v10 (F := Ideal) x0 x1 x2 x3 = Cert.Spec.take (ReadP.val_main_v7 (F := Ideal) x0 x1 x2) x3 h := by
  funext i
  obtain ⟨b, g, n, j, rfl⟩ : ∃ (b g : Fin 8) (n j : Fin 1024), i = ix4 b g n j := ⟨i 0, i 1, i 2, i 3, eq_ix4 i⟩
  rw [Cert.Spec.take_apply, ReadP.val_main_v10_apply, v12_at x3 h, select_one, v13_at x0 x1 x2 x3 h]

end Cert.ReferenceIdeal.Take

end
-- ==== Proof.PreRange.lean ====
/-
  WHAT THE PRECONDITION SAYS OF THE TABLE. The precondition is the conjunction of four `all`s; its last conjunct is
  `all ((dist ≥ 0) ∧ (dist < 64))` over the signed reading of the words, so where the precondition is 1 every entry of the
  table is a bucket number.
-/
import proofs.«425957_j10582799417497_1_alg».proof.Proof.Gen.Pre_finite_inputs
import proofs.«425957_j10582799417497_1_alg».proof.Proof.Spec
import Idealize.ShloMosaic.Lib.ReduceAll

noncomputable section

namespace Cert.PreRange

open Idealize.ShloMosaic Idealize.ShloMosaic.ValueIdx

/-- Where the precondition holds, every entry of the table, read signed, lies in [0, 64). -/
theorem inRange_of_pre (x0 : FVec Ideal Cert.Pre_finite_inputs.S8x5x2 .f32) (x1 : FVec Ideal Cert.Pre_finite_inputs.S1024x2 .f32)
    (x2 : FVec Ideal Cert.Pre_finite_inputs.S10x512 .f32) (x3 : IVec Cert.Pre_finite_inputs.S1024x1024 32)
    (h : Cert.Pre_finite_inputs.fn (F := Ideal) x0 x1 x2 x3 = fun _ => 1#1) : Cert.Spec.InRange x3 := by
  -- the scalar shape has one index; read the precondition there and open the chain of operations
  have h0 := congrFun h ix0
  dsimp only [Cert.Pre_finite_inputs.fn, Cert.Pre_finite_inputs.fn_part1] at h0
  -- the result is (the three finiteness tests) ∧ (the `all` over the table): keep the second half
  have h19 := (IntOp.andi_eq_one.1 h0).2
  haveI : Subsingleton Cert.Pre_finite_inputs.S_.Idx := ⟨fun a b => funext fun d => d.elim0⟩
  intro n j
  -- an `all` that is 1 had a 1 at every entry; at entry (n, j) it is (0 ≤ dist) ∧ (dist < 64) on the signed words
  have hnj := Host.reduce_andi_all _ _ _ _ _ h19 (ix2 n j)
  obtain ⟨hge, hlt⟩ := IntOp.andi_eq_one.1 hnj
  have h1 := IntOp.cmpi_sge.1 hge
  have h2 := IntOp.cmpi_slt.1 hlt
  exact ⟨h1, h2⟩

end Cert.PreRange

end
-- ==== Proof.GemmBlock.lean ====
/-
  THE PRODUCT KERNEL'S BLOCK IS THE REFERENCE'S PRODUCT. The first pallas_call runs at one grid point on whole arrays: it
  forms the difference tensor diff[b, n, e, f] = mesh[n, f] - keypoints[b, e, f], flattens its two trailing axes to one of
  extent 10 and its two leading axes to one of extent 8192, multiplies with W [10, 512] into a zero accumulator, and splits
  the rows back into [8, 1024]. The reference forms the same difference tensor (by broadcasts in place of shape casts),
  flattens the trailing axes the same way, and contracts with W by a dot_general. Entry (b, n, o) of both is the sum over
  the 10 features k of the flattened difference at (b, n, k) times W[k, o].
-/
import proofs.«425957_j10582799417497_1_alg».proof.Proof.Gen.KernelIdeal.Skeleton
import proofs.«425957_j10582799417497_1_alg».proof.Proof.RefRead
import Idealize.ShloMosaic.Lib.Pipeline.Value
import Idealize.ShloMosaic.Lib.ValueIdx
import Idealize.ShloMosaic.PureOps.Ideal.Laws

noncomputable section

namespace Cert.KernelIdeal.Gemm

open Cert.KernelIdeal Cert.KernelIdeal.Gen Idealize.ShloMosaic Idealize.ShloMosaic.ValueIdx

/-! ## The difference tensor, on both sides -/

/-- The kernel's difference tensor at (b, n, e, f): mesh[n, f] - keypoints[b, e, f]. -/
theorem kernel_diff_apply (kp : Vec Ideal S8x5x2 .f32) (mg : Vec Ideal S1024x2 .f32) (b : Fin 8) (n : Fin 1024) (e : Fin 5) (f : Fin 2) :
    (subf (broadcastTo S8x1024x5x2 (shapeCast S1x1024x1x2 mg shapeCasts_S1024x2_S1x1024x1x2) broadcasts_S1x1024x1x2_S8x1024x5x2)
        (broadcastTo S8x1024x5x2 (shapeCast S8x1x5x2 kp shapeCasts_S8x5x2_S8x1x5x2) broadcasts_S8x1x5x2_S8x1024x5x2)
      : FVec Ideal S8x1024x5x2 .f32) (ix4 b n e f) = mg (ix2 n f) - kp (ix3 b e f) := by
  show broadcastTo S8x1024x5x2 (shapeCast S1x1024x1x2 mg shapeCasts_S1024x2_S1x1024x1x2) broadcasts_S1x1024x1x2_S8x1024x5x2 (ix4 b n e f)
      - broadcastTo S8x1024x5x2 (shapeCast S8x1x5x2 kp shapeCasts_S8x5x2_S8x1x5x2) broadcasts_S8x1x5x2_S8x1024x5x2 (ix4 b n e f) = _
  rw [broadcastTo_apply _ broadcasts_S1x1024x1x2_S8x1024x5x2 (ix4 b n e f) (ix4 (0 : Fin 1) n (0 : Fin 1) f)
      (fun a => by match a with
        | ⟨0, _⟩ => rfl
        | ⟨1, _⟩ => rfl
        | ⟨2, _⟩ => rfl
        | ⟨3, _⟩ => rfl),
    shapeCast_apply _ shapeCasts_S1024x2_S1x1024x1x2 (ix4 (0 : Fin 1) n (0 : Fin 1) f) (ix2 n f)
      (by rw [Shape.rowMajor_val_two, Shape.rowMajor_val_four]; show n.val * 2 + f.val = ((0 * 1024 + n.val) * 1 + 0) * 2 + f.val; omega),
    broadcastTo_apply _ broadcasts_S8x1x5x2_S8x1024x5x2 (ix4 b n e f) (ix4 b (0 : Fin 1) e f)
      (fun a => by match a with
        | ⟨0, _⟩ => rfl
        | ⟨1, _⟩ => rfl
        | ⟨2, _⟩ => rfl
        | ⟨3, _⟩ => rfl),
    shapeCast_apply _ shapeCasts_S8x5x2_S8x1x5x2 (ix4 b (0 : Fin 1) e f) (ix3 b e f)
      (by rw [Shape.rowMajor_val_three, Shape.rowMajor_val_four]; show (b.val * 5 + e.val) * 2 + f.val = ((b.val * 1 + 0) * 5 + e.val) * 2 + f.val; omega)]

/-- The reference's difference tensor at (b, n, e, f): the same. -/
theorem ref_diff_apply (kp : Vec Ideal S8x5x2 .f32) (mg : Vec Ideal S1024x2 .f32) (b : Fin 8) (n : Fin 1024) (e : Fin 5) (f : Fin 2) :
    Cert.ReferenceIdeal.ReadP.val_main_v4 (F := Ideal) kp mg (ix4 b n e f) = mg (ix2 n f) - kp (ix3 b e f) := by
  rw [Cert.ReferenceIdeal.ReadP.val_main_v4_apply, Cert.ReferenceIdeal.ReadP.val_main_v2_apply, Cert.ReferenceIdeal.ReadP.val_main_v0_apply, Cert.ReferenceIdeal.ReadP.val_main_v3_apply, Cert.ReferenceIdeal.ReadP.val_main_v1_apply]
  have e1 : Cert.ReferenceIdeal.ReadP.idx_main_v0 (Cert.ReferenceIdeal.ReadP.idx_main_v2 (ix4 b n e f)) = ix2 n f :=
    funext fun a => Fin.ext (by match a with
      | ⟨0, _⟩ => rfl
      | ⟨1, _⟩ => rfl)
  have e2 : Cert.ReferenceIdeal.ReadP.idx_main_v1 (Cert.ReferenceIdeal.ReadP.idx_main_v3 (ix4 b n e f)) = ix3 b e f :=
    funext fun a => Fin.ext (by match a with
      | ⟨0, _⟩ => rfl
      | ⟨1, _⟩ => rfl
      | ⟨2, _⟩ => rfl)
  rw [e1, e2]
  rfl

/-- The two difference tensors are one array. -/
theorem diff_eq (kp : Vec Ideal S8x5x2 .f32) (mg : Vec Ideal S1024x2 .f32) :
    (subf (broadcastTo S8x1024x5x2 (shapeCast S1x1024x1x2 mg shapeCasts_S1024x2_S1x1024x1x2) broadcasts_S1x1024x1x2_S8x1024x5x2)
        (broadcastTo S8x1024x5x2 (shapeCast S8x1x5x2 kp shapeCasts_S8x5x2_S8x1x5x2) broadcasts_S8x1x5x2_S8x1024x5x2)
      : FVec Ideal S8x1024x5x2 .f32) = Cert.ReferenceIdeal.ReadP.val_main_v4 (F := Ideal) kp mg := by
  funext i
  obtain ⟨b, n, e, f, rfl⟩ : ∃ (b : Fin 8) (n : Fin 1024) (e : Fin 5) (f : Fin 2), i = ix4 b n e f := ⟨i 0, i 1, i 2, i 3, eq_ix4 i⟩
  rw [kernel_diff_apply, ref_diff_apply]

/-! ## The kernel's product: rows times columns, contracted over the 10 features -/

theorem lhs_axis0 (i : S8192x512.Idx) (q : dot_S8192x10_S10x512_S8192x512_1_0_0_1_n_n.contr.Idx) : (dot_S8192x10_S10x512_S8192x512_1_0_0_1_n_n.lhsIdx i q 0).val = (i 0).val := by
  unfold DotDims.lhsIdx
  rw [dif_neg (show ¬(0 : Fin S8192x10.rank) ∈ dot_S8192x10_S10x512_S8192x512_1_0_0_1_n_n.lhsBatch by decide), dif_pos (show (0 : Fin S8192x10.rank) ∈ dot_S8192x10_S10x512_S8192x512_1_0_0_1_n_n.lhsNonContracting by decide)]
  rfl
theorem lhs_axis1 (i : S8192x512.Idx) (q : dot_S8192x10_S10x512_S8192x512_1_0_0_1_n_n.contr.Idx) : (dot_S8192x10_S10x512_S8192x512_1_0_0_1_n_n.lhsIdx i q 1).val = (q ⟨0, by decide⟩).val :=
  dot_S8192x10_S10x512_S8192x512_1_0_0_1_n_n.lhsIdx_val_of_single rfl i q
theorem rhs_axis0 (i : S8192x512.Idx) (q : dot_S8192x10_S10x512_S8192x512_1_0_0_1_n_n.contr.Idx) : (dot_S8192x10_S10x512_S8192x512_1_0_0_1_n_n.rhsIdx i q 0).val = (q ⟨0, by decide⟩).val :=
  dot_S8192x10_S10x512_S8192x512_1_0_0_1_n_n.rhsIdx_val_of_single rfl i q
theorem rhs_axis1 (i : S8192x512.Idx) (q : dot_S8192x10_S10x512_S8192x512_1_0_0_1_n_n.contr.Idx) : (dot_S8192x10_S10x512_S8192x512_1_0_0_1_n_n.rhsIdx i q 1).val = (i 1).val := by
  unfold DotDims.rhsIdx
  rw [dif_neg (show ¬(1 : Fin S10x512.rank) ∈ dot_S8192x10_S10x512_S8192x512_1_0_0_1_n_n.rhsBatch by decide), dif_pos (show (1 : Fin S10x512.rank) ∈ dot_S8192x10_S10x512_S8192x512_1_0_0_1_n_n.rhsNonContracting by decide)]
  rfl

/-- The product into a zero accumulator at (p, o): the sum over the feature k of left[p, k] · right[k, o]. -/
theorem product_apply (l : FVec Ideal S8192x10 .f32) (w : FVec Ideal S10x512 .f32) (p : Fin 8192) (o : Fin 512) :
    matmul dot_S8192x10_S10x512_S8192x512_1_0_0_1_n_n none l w (constant S8192x512 .f32 0x00000000#32) (ix2 p o) = ∑ k : Fin 10, l (ix2 p k) * w (ix2 k o) := by
  simp only [matmul]
  rw [Ideal.matmul_constant_zero_apply, ← Equiv.sum_comp (ValueIdx.contrEquiv1 dot_S8192x10_S10x512_S8192x512_1_0_0_1_n_n 10 rfl rfl).symm]
  refine Finset.sum_congr rfl fun k _ => ?_
  have hk := ValueIdx.contrEquiv1_symm_val dot_S8192x10_S10x512_S8192x512_1_0_0_1_n_n 10 rfl rfl k
  have el : dot_S8192x10_S10x512_S8192x512_1_0_0_1_n_n.lhsIdx (ix2 p o) ((ValueIdx.contrEquiv1 dot_S8192x10_S10x512_S8192x512_1_0_0_1_n_n 10 rfl rfl).symm k) = ix2 p k :=
    funext fun a => Fin.ext (by
      match a with
      | ⟨0, _⟩ => exact lhs_axis0 _ _
      | ⟨1, _⟩ => exact (lhs_axis1 _ _).trans hk)
  have er : dot_S8192x10_S10x512_S8192x512_1_0_0_1_n_n.rhsIdx (ix2 p o) ((ValueIdx.contrEquiv1 dot_S8192x10_S10x512_S8192x512_1_0_0_1_n_n 10 rfl rfl).symm k) = ix2 k o :=
    funext fun a => Fin.ext (by
      match a with
      | ⟨0, _⟩ => exact (rhs_axis0 _ _).trans hk
      | ⟨1, _⟩ => exact rhs_axis1 _ _)
  rw [el, er]

/-! ## The stored block -/

/-- What the first pallas_call's body stores, of its three loaded blocks, is the reference's product stage of them. -/
theorem stored_eq (kp : Vec Ideal S8x5x2 .f32) (mg : Vec Ideal S1024x2 .f32) (W : Vec Ideal S10x512 .f32) :
    k0_pay1 (F := Ideal) kp mg W = Cert.ReferenceIdeal.ReadP.val_main_v6 (F := Ideal) kp mg W := by
  funext i
  obtain ⟨b, n, o, rfl⟩ : ∃ (b : Fin 8) (n : Fin 1024) (o : Fin 512), i = ix3 b n o := ⟨i 0, i 1, i 2, eq_ix3 i⟩
  unfold k0_pay1
  rw [shapeCast_apply _ shapeCasts_S8192x512_S8x1024x512 (ix3 b n o) (ix2 (⟨b.val * 1024 + n.val, by omega⟩ : Fin 8192) o)
    (by rw [Shape.rowMajor_val_two, Shape.rowMajor_val_three]; show (b.val * 1024 + n.val) * 512 + o.val = (b.val * 1024 + n.val) * 512 + o.val; rfl)]
  rw [product_apply, Cert.ReferenceIdeal.ReadP.val_main_v6_apply]
  refine Finset.sum_congr rfl fun k _ => ?_
  rw [shapeCast_apply _ shapeCasts_S8x1024x10_S8192x10 (ix2 (⟨b.val * 1024 + n.val, by omega⟩ : Fin 8192) k) (ix3 b n k)
    (by rw [Shape.rowMajor_val_three, Shape.rowMajor_val_two]; show (b.val * 1024 + n.val) * 10 + k.val = (b.val * 1024 + n.val) * 10 + k.val; rfl)]
  have el : Cert.ReferenceIdeal.ReadP.lidx_main_v6 (ix3 b n o) k = ix3 b n k :=
    funext fun a => Fin.ext (by match a with
      | ⟨0, _⟩ => rfl
      | ⟨1, _⟩ => rfl
      | ⟨2, _⟩ => rfl)
  have er : Cert.ReferenceIdeal.ReadP.ridx_main_v6 (ix3 b n o) k = ix2 k o :=
    funext fun a => Fin.ext (by match a with
      | ⟨0, _⟩ => rfl
      | ⟨1, _⟩ => rfl)
  rw [el, er, diff_eq]
  rfl

end Cert.KernelIdeal.Gemm

end
-- ==== Proof.GemmArray.lean ====
/-
  THE PRODUCT KERNEL'S WHOLE RESULT ARRAY. The first pallas_call has one grid point, and each of its windows' one block
  is its whole array: the body's loaded blocks are the three argument arrays as the region finds them, and the one
  write-back covers the whole result array. So the array ends at the stored block of those arrays, which is the
  reference's product stage of them.
-/
import proofs.«425957_j10582799417497_1_alg».proof.Proof.Gen.KernelIdeal.Frame
import proofs.«425957_j10582799417497_1_alg».proof.Proof.GemmBlock
import Idealize.ShloMosaic.Lib.Pipeline.Value

set_option maxRecDepth 16384

noncomputable section

namespace Cert.KernelIdeal.Gemm

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps at the one grid point: every window is at block 0 on every axis. -/
theorem index_facts : ∀ t : Fin cfg0.N,
    win0_0.index t (0 : Fin 3) = 0 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0 :=
  (by decide +kernel : ∀ t : Fin grid0.N, _)

/-- The keypoints window's block is the whole keypoints array. -/
theorem kp_block (c : Dev nD) (t : Fin cfg0.N) : (iblk0 V c 0 t : Vec Ideal S8x5x2 .f32) = (V c main_arg0 : Vec Ideal S8x5x2 .f32) := by
  funext y
  show V c main_arg0 (((cfg0.win 0).blk t).view.emb y) = V c main_arg0 y
  refine congrArg (V c main_arg0) (funext fun a => Fin.ext ?_)
  obtain ⟨e0, e1, e2, -⟩ := index_facts t
  match a with
  | ⟨0, _⟩ => show win0_0.index t (0 : Fin 3) * 8 + 1 * (y 0).val = (y 0).val; omega
  | ⟨1, _⟩ => show win0_0.index t (1 : Fin 3) * 5 + 1 * (y 1).val = (y 1).val; omega
  | ⟨2, _⟩ => show win0_0.index t (2 : Fin 3) * 2 + 1 * (y 2).val = (y 2).val; omega

/-- The mesh window's block is the whole mesh array. -/
theorem mg_block (c : Dev nD) (t : Fin cfg0.N) : (iblk0 V c 1 t : Vec Ideal S1024x2 .f32) = (V c main_arg1 : Vec Ideal S1024x2 .f32) := by
  funext y
  show V c main_arg1 (((cfg0.win 1).blk t).view.emb y) = V c main_arg1 y
  refine congrArg (V c main_arg1) (funext fun a => Fin.ext ?_)
  obtain ⟨-, -, -, e3, e4, -⟩ := index_facts t
  match a with
  | ⟨0, _⟩ => show win0_1.index t (0 : Fin 2) * 1024 + 1 * (y 0).val = (y 0).val; omega
  | ⟨1, _⟩ => show win0_1.index t (1 : Fin 2) * 2 + 1 * (y 1).val = (y 1).val; omega

/-- The weights window's block is the whole W array. -/
theorem w_block (c : Dev nD) (t : Fin cfg0.N) : (iblk0 V c 2 t : Vec Ideal S10x512 .f32) = (V c main_arg2 : Vec Ideal S10x512 .f32) := by
  funext y
  show V c main_arg2 (((cfg0.win 2).blk t).view.emb y) = V c main_arg2 y
  refine congrArg (V c main_arg2) (funext fun a => Fin.ext ?_)
  obtain ⟨-, -, -, -, -, e5, e6, -⟩ := index_facts t
  match a with
  | ⟨0, _⟩ => show win0_2.index t (0 : Fin 2) * 10 + 1 * (y 0).val = (y 0).val; omega
  | ⟨1, _⟩ => show win0_2.index t (1 : Fin 2) * 512 + 1 * (y 1).val = (y 1).val; omega

/-- The output block sits on the whole result array. -/
theorem out_emb (t : Fin cfg0.N) (y : S8x1024x512.Idx) : ((cfg0.win 3).blk t).view.emb y = y := by
  refine funext fun a => Fin.ext ?_
  obtain ⟨-, -, -, -, -, -, -, e7, e8, e9⟩ := index_facts t
  match a with
  | ⟨0, _⟩ => show win0_3.index t (0 : Fin 3) * 8 + 1 * (y 0).val = (y 0).val; omega
  | ⟨1, _⟩ => show win0_3.index t (1 : Fin 3) * 1024 + 1 * (y 1).val = (y 1).val; omega
  | ⟨2, _⟩ => show win0_3.index t (2 : Fin 3) * 512 + 1 * (y 2).val = (y 2).val; omega

/-- WHAT THE ONE POINT WRITES BACK is (the one block of) the stored block of the three arrays as the region finds them. -/
theorem flushed_eq (c : Dev nD) (t : Fin cfg0.N) :
    (dat0 V c).flushed 3 t
      = ((cfg0.win 3).blk t).view.read (Elt Ideal) (k0_pay1 (F := Ideal) (V c main_arg0) (V c main_arg1) (V c main_arg2)) := by
  show (cfg0.win 3).cut (grid0.coords t) ((dat0 V c).after 3 t) = _
  rw [after0_3]
  unfold out0_3
  rw [View.canon_unit_zero hz3]
  simp only [View.ld_unit_zero (S := S8x5x2) hz3, View.ld_unit_zero (S := S1024x2) hz2, View.ld_unit_zero (S := S10x512) hz2]
  rw [kp_block V c t, mg_block V c t, w_block V c t]
  refine funext fun (y : S8x1024x512.Idx) => ?_
  show k0_pay1 (F := Ideal) (V c main_arg0) (V c main_arg1) (V c main_arg2) y
    = k0_pay1 (F := Ideal) (V c main_arg0) (V c main_arg1) (V c main_arg2) (((cfg0.win 3).blk t).view.emb y)
  rw [out_emb]

/-- An index of the result is in the point's block iff each coordinate is in the block's range on its axis. -/
theorem mem_blk (t : Fin cfg0.N) (i : S8x1024x512.Idx) :
    i ∈ ((cfg0.win 3).blk t).view.set ↔ ∀ a : Fin 3, win0_3.index t a * S8x1024x512.size a ≤ (i a).val
      ∧ (i a).val < win0_3.index t a * S8x1024x512.size a + S8x1024x512.size a := by
  show i ∈ ((View.whole main_v0).slice (win0_3.rect t)).set ↔ _
  rw [View.set_slice_whole, Rect.mem_set_unit]
  exact Iff.rfl

/-- The one block covers the whole result array. -/
theorem covered (i : S8x1024x512.Idx) :
    ∃ t : Fin cfg0.N, (cfg0.win 3).flush t = true ∧ i ∈ ((cfg0.win 3).blk t).view.set := by
  have h0 : (i 0).val < 8 := (i 0).isLt
  have h1 : (i 1).val < 1024 := (i 1).isLt
  have h2 : (i 2).val < 512 := (i 2).isLt
  refine ⟨(⟨0, by decide⟩ : Fin cfg0.N), flush0_3 _, ?_⟩
  rw [mem_blk]
  obtain ⟨-, -, -, -, -, -, -, e7, e8, e9⟩ := index_facts (⟨0, by decide⟩ : Fin cfg0.N)
  intro a
  match a with
  | ⟨0, _⟩ => show win0_3.index _ (0 : Fin 3) * 8 ≤ (i 0).val ∧ (i 0).val < win0_3.index _ (0 : Fin 3) * 8 + 8; omega
  | ⟨1, _⟩ => show win0_3.index _ (1 : Fin 3) * 1024 ≤ (i 1).val ∧ (i 1).val < win0_3.index _ (1 : Fin 3) * 1024 + 1024; omega
  | ⟨2, _⟩ => show win0_3.index _ (2 : Fin 3) * 512 ≤ (i 2).val ∧ (i 2).val < win0_3.index _ (2 : Fin 3) * 512 + 512; omega

/-- THE RESULT ARRAY after the first pallas_call, from any entry contents `V`: the reference's product stage of the three
    argument arrays as the region finds them. -/
theorem array_eq (c : Dev nD) :
    (dat0 V c).arrAt 3 cfg0.N = Cert.ReferenceIdeal.ReadP.val_main_v6 (F := Ideal) (V c main_arg0) (V c main_arg1) (V c main_arg2) :=
  ((dat0 V c).arrAt_eq_of_cover 3 (k0_pay1 (F := Ideal) (V c main_arg0) (V c main_arg1) (V c main_arg2))
    (fun t _ => flushed_eq V c t) covered).trans (stored_eq _ _ _)

end Cert.KernelIdeal.Gemm

end
-- ==== Proof.GatherBlock.lean ====
/-
  THE GATHER KERNEL'S BLOCK, entry by entry. From a block `x` of shape [8, 8, 32, 64] and a block `d` of 32-bit words of shape
  [32, 1024] the body stores the block of shape [8, 8, 32, 1024] whose entry (b, g, r, j) is the sum over the 64 buckets k
  of x[b, g, r, k] times the weight of bucket k at (r, j): the word comparison `d[r, j] = k`, widened and converted to a
  float (1 where it holds, 0 where it does not). The body reaches it by moving the row axis to the front, merging the two
  leading axes of `x` into one of extent 64, multiplying row by row with the table of weights (a product batched over the
  row, contracted over the bucket), and undoing the two layout steps; a change of float format is the identity here.
-/
import proofs.«425957_j10582799417497_1_alg».proof.Proof.Gen.KernelIdeal.Skeleton
import proofs.«425957_j10582799417497_1_alg».proof.Proof.Spec
import Idealize.ShloMosaic.Lib.Pipeline.Value
import Idealize.ShloMosaic.Lib.ValueIdx
import Idealize.ShloMosaic.PureOps.Ideal.Laws

noncomputable section

namespace Cert.KernelIdeal.Gather

open Cert.KernelIdeal Cert.KernelIdeal.Gen Idealize.ShloMosaic Idealize.ShloMosaic.ValueIdx

/-- The weight of bucket `k` for the table word `d`: the one-bit comparison `d = k`, zero-extended to 32 bits and
    converted to a float. -/
def weight (d : BitVec 32) (k : Fin 64) : EReal :=
  FloatOps.sitofp (F := Ideal) .f32 ((IntOp.cmpi .eq d (BitVec.ofNat 32 k.val)).setWidth 32)

/-! ## The batched product's operand indices: the row is the batch axis, the bucket the contracted one -/

theorem lhs_axis0 (i : S32x64x1024.Idx) (q : dot_S32x64x64_S32x64x1024_S32x64x1024_2_1_1_2_0_0.contr.Idx) :
    (dot_S32x64x64_S32x64x1024_S32x64x1024_2_1_1_2_0_0.lhsIdx i q 0).val = (i 0).val := by
  unfold DotDims.lhsIdx
  rw [dif_pos (show (0 : Fin S32x64x64.rank) ∈ dot_S32x64x64_S32x64x1024_S32x64x1024_2_1_1_2_0_0.lhsBatch by decide)]
  rfl
theorem lhs_axis1 (i : S32x64x1024.Idx) (q : dot_S32x64x64_S32x64x1024_S32x64x1024_2_1_1_2_0_0.contr.Idx) :
    (dot_S32x64x64_S32x64x1024_S32x64x1024_2_1_1_2_0_0.lhsIdx i q 1).val = (i 1).val := by
  unfold DotDims.lhsIdx
  rw [dif_neg (show ¬(1 : Fin S32x64x64.rank) ∈ dot_S32x64x64_S32x64x1024_S32x64x1024_2_1_1_2_0_0.lhsBatch by decide),
    dif_pos (show (1 : Fin S32x64x64.rank) ∈ dot_S32x64x64_S32x64x1024_S32x64x1024_2_1_1_2_0_0.lhsNonContracting by decide)]
  rfl
theorem lhs_axis2 (i : S32x64x1024.Idx) (q : dot_S32x64x64_S32x64x1024_S32x64x1024_2_1_1_2_0_0.contr.Idx) :
    (dot_S32x64x64_S32x64x1024_S32x64x1024_2_1_1_2_0_0.lhsIdx i q 2).val = (q ⟨0, by decide⟩).val :=
  dot_S32x64x64_S32x64x1024_S32x64x1024_2_1_1_2_0_0.lhsIdx_val_of_single rfl i q
theorem rhs_axis0 (i : S32x64x1024.Idx) (q : dot_S32x64x64_S32x64x1024_S32x64x1024_2_1_1_2_0_0.contr.Idx) :
    (dot_S32x64x64_S32x64x1024_S32x64x1024_2_1_1_2_0_0.rhsIdx i q 0).val = (i 0).val := by
  unfold DotDims.rhsIdx
  rw [dif_pos (show (0 : Fin S32x64x1024.rank) ∈ dot_S32x64x64_S32x64x1024_S32x64x1024_2_1_1_2_0_0.rhsBatch by decide)]
  rfl
theorem rhs_axis1 (i : S32x64x1024.Idx) (q : dot_S32x64x64_S32x64x1024_S32x64x1024_2_1_1_2_0_0.contr.Idx) :
    (dot_S32x64x64_S32x64x1024_S32x64x1024_2_1_1_2_0_0.rhsIdx i q 1).val = (q ⟨0, by decide⟩).val :=
  dot_S32x64x64_S32x64x1024_S32x64x1024_2_1_1_2_0_0.rhsIdx_val_of_single rfl i q
theorem rhs_axis2 (i : S32x64x1024.Idx) (q : dot_S32x64x64_S32x64x1024_S32x64x1024_2_1_1_2_0_0.contr.Idx) :
    (dot_S32x64x64_S32x64x1024_S32x64x1024_2_1_1_2_0_0.rhsIdx i q 2).val = (i 2).val := by
  unfold DotDims.rhsIdx
  rw [dif_neg (show ¬(2 : Fin S32x64x1024.rank) ∈ dot_S32x64x64_S32x64x1024_S32x64x1024_2_1_1_2_0_0.rhsBatch by decide),
    dif_pos (show (2 : Fin S32x64x1024.rank) ∈ dot_S32x64x64_S32x64x1024_S32x64x1024_2_1_1_2_0_0.rhsNonContracting by decide)]
  rfl

/-- The batched product into a zero accumulator at (r, q, j): the sum over the bucket k of left[r, q, k] · right[r, k, j]. -/
theorem product_apply (l : FVec Ideal S32x64x64 .bf16) (w : FVec Ideal S32x64x1024 .bf16) (r : Fin 32) (q : Fin 64) (j : Fin 1024) :
    matmul dot_S32x64x64_S32x64x1024_S32x64x1024_2_1_1_2_0_0 none l w (constant S32x64x1024 .f32 0x00000000#32) (ix3 r q j)
      = ∑ k : Fin 64, l (ix3 r q k) * w (ix3 r k j) := by
  simp only [matmul]
  rw [Ideal.matmul_constant_zero_apply,
    ← Equiv.sum_comp (ValueIdx.contrEquiv1 dot_S32x64x64_S32x64x1024_S32x64x1024_2_1_1_2_0_0 64 rfl rfl).symm]
  refine Finset.sum_congr rfl fun k _ => ?_
  have hk := ValueIdx.contrEquiv1_symm_val dot_S32x64x64_S32x64x1024_S32x64x1024_2_1_1_2_0_0 64 rfl rfl k
  have el : dot_S32x64x64_S32x64x1024_S32x64x1024_2_1_1_2_0_0.lhsIdx (ix3 r q j)
      ((ValueIdx.contrEquiv1 dot_S32x64x64_S32x64x1024_S32x64x1024_2_1_1_2_0_0 64 rfl rfl).symm k) = ix3 r q k :=
    funext fun a => Fin.ext (by
      match a with
      | ⟨0, _⟩ => exact lhs_axis0 _ _
      | ⟨1, _⟩ => exact lhs_axis1 _ _
      | ⟨2, _⟩ => exact (lhs_axis2 _ _).trans hk)
  have er : dot_S32x64x64_S32x64x1024_S32x64x1024_2_1_1_2_0_0.rhsIdx (ix3 r q j)
      ((ValueIdx.contrEquiv1 dot_S32x64x64_S32x64x1024_S32x64x1024_2_1_1_2_0_0 64 rfl rfl).symm k) = ix3 r k j :=
    funext fun a => Fin.ext (by
      match a with
      | ⟨0, _⟩ => exact rhs_axis0 _ _
      | ⟨1, _⟩ => exact (rhs_axis1 _ _).trans hk
      | ⟨2, _⟩ => exact rhs_axis2 _ _)
  rw [el, er]

/-! ## The two operands of the product, read at an index -/

/-- The left operand at (r, 8·b + g, k) is the loaded block at (b, g, r, k): the transpose puts the row first, the shape
    cast merges the two leading axes of the block. -/
theorem left_apply (x : Vec Ideal S8x8x32x64 .f32) (b g : Fin 8) (r : Fin 32) (k : Fin 64) :
    (shapeCast S32x64x64 (transpose S32x8x8x64 [2, 0, 1, 3]
        (truncf .bf16 (shapeCast S8x8x32x64 x shapeCasts_S8x8x32x64_S8x8x32x64) bitsLt_bf16_f32 : FVec Ideal S8x8x32x64 .bf16)
        transposes_S8x8x32x64_p2_0_1_3_S32x8x8x64) shapeCasts_S32x8x8x64_S32x64x64 : FVec Ideal S32x64x64 .bf16)
      (ix3 r (⟨b.val * 8 + g.val, by omega⟩ : Fin 64) k) = x (ix4 b g r k) := by
  rw [shapeCast_apply _ shapeCasts_S32x8x8x64_S32x64x64 _ (ix4 r b g k)
    (by rw [Shape.rowMajor_val_four, Shape.rowMajor_val_three]; show ((r.val * 8 + b.val) * 8 + g.val) * 64 + k.val = (r.val * 64 + (b.val * 8 + g.val)) * 64 + k.val; omega)]
  rw [transpose_apply [2, 0, 1, 3] _ transposes_S8x8x32x64_p2_0_1_3_S32x8x8x64 (ix4 r b g k) (ix4 b g r k)
    (fun a => by match a with
      | ⟨0, _⟩ => rfl
      | ⟨1, _⟩ => rfl
      | ⟨2, _⟩ => rfl
      | ⟨3, _⟩ => rfl)]
  rw [shapeCast_self]
  rfl

/-- The table of weights at (r, k, j): the comparison of the loaded table's word at (r, j) with the bucket number k. -/
theorem right_apply (d : Vec Ideal S32x1024 .i32) (r : Fin 32) (k : Fin 64) (j : Fin 1024) :
    (truncf .bf16 (sitofp (F := Ideal) .f32 (extui 32 (cmpi .eq
        (broadcastTo S32x64x1024 (shapeCast S32x1x1024 d shapeCasts_S32x1024_S32x1x1024) broadcasts_S32x1x1024_S32x64x1024)
        (iota .tc S32x64x1024 32 [1] iota_S32x64x1024_d1_w32)) natLt_1_32)) bitsLt_bf16_f32 : FVec Ideal S32x64x1024 .bf16)
      (ix3 r k j) = weight (d (ix2 r j)) k := by
  show FloatOps.sitofp (F := Ideal) .f32 ((IntOp.cmpi .eq
      (broadcastTo S32x64x1024 (shapeCast S32x1x1024 d shapeCasts_S32x1024_S32x1x1024) broadcasts_S32x1x1024_S32x64x1024 (ix3 r k j))
      (iota .tc S32x64x1024 32 [1] iota_S32x64x1024_d1_w32 (ix3 r k j))).setWidth 32) = _
  rw [iota_single_apply,
    broadcastTo_apply _ broadcasts_S32x1x1024_S32x64x1024 (ix3 r k j) (ix3 r (0 : Fin 1) j)
      (fun a => by match a with
        | ⟨0, _⟩ => rfl
        | ⟨1, _⟩ => rfl
        | ⟨2, _⟩ => rfl),
    shapeCast_apply _ shapeCasts_S32x1024_S32x1x1024 (ix3 r (0 : Fin 1) j) (ix2 r j)
      (by rw [Shape.rowMajor_val_two, Shape.rowMajor_val_three]; show r.val * 1024 + j.val = (r.val * 1 + 0) * 1024 + j.val; omega)]
  rfl

/-! ## The stored block -/

/-- Entry (b, g, r, j) of what the body stores: the sum over the buckets of the block at (b, g, r, k) times the weight of
    bucket k at (r, j). -/
theorem stored_apply (x : Vec Ideal S8x8x32x64 .f32) (d : Vec Ideal S32x1024 .i32) (b g : Fin 8) (r : Fin 32) (j : Fin 1024) :
    k1_pay1 (F := Ideal) x d (ix4 b g r j) = ∑ k : Fin 64, x (ix4 b g r k) * weight (d (ix2 r j)) k := by
  unfold k1_pay1
  rw [transpose_apply [1, 2, 0, 3] _ transposes_S32x8x8x1024_p1_2_0_3_S8x8x32x1024 (ix4 b g r j) (ix4 r b g j)
    (fun a => by match a with
      | ⟨0, _⟩ => rfl
      | ⟨1, _⟩ => rfl
      | ⟨2, _⟩ => rfl
      | ⟨3, _⟩ => rfl)]
  rw [shapeCast_apply _ shapeCasts_S32x64x1024_S32x8x8x1024 (ix4 r b g j) (ix3 r (⟨b.val * 8 + g.val, by omega⟩ : Fin 64) j)
    (by rw [Shape.rowMajor_val_three, Shape.rowMajor_val_four]; show (r.val * 64 + (b.val * 8 + g.val)) * 1024 + j.val = ((r.val * 8 + b.val) * 8 + g.val) * 1024 + j.val; omega)]
  rw [product_apply]
  refine Finset.sum_congr rfl fun k _ => ?_
  rw [left_apply, right_apply]

/-! ## The weights of a bucket number: 1 at its own bucket, 0 at the others -/

/-- The weight is 1 where the word is the bucket's number and 0 where it is not. -/
theorem weight_eq (d : BitVec 32) (k : Fin 64) : weight d k = if d = BitVec.ofNat 32 k.val then 1 else 0 := by
  unfold weight
  by_cases h : d = BitVec.ofNat 32 k.val
  · rw [if_pos h, h]
    have e : IntOp.cmpi .eq (BitVec.ofNat 32 k.val) (BitVec.ofNat 32 k.val) = 1#1 := by simp [IntOp.cmpi]
    rw [e]
    show ((((1#1 : BitVec 1).setWidth 32).toInt : ℝ) : EReal) = 1
    rw [show ((1#1 : BitVec 1).setWidth 32).toInt = 1 by decide]
    norm_num
  · rw [if_neg h]
    have hb : (d == BitVec.ofNat 32 k.val) = false := beq_false_of_ne h
    have e : IntOp.cmpi .eq d (BitVec.ofNat 32 k.val) = 0#1 := by simp [IntOp.cmpi, hb]
    rw [e]
    show ((((0#1 : BitVec 1).setWidth 32).toInt : ℝ) : EReal) = 0
    rw [show ((0#1 : BitVec 1).setWidth 32).toInt = 0 by decide]
    norm_num

/-- A word whose signed reading is not negative reads the same unsigned. -/
theorem toNat_of_nonneg (d : BitVec 32) (h0 : 0 ≤ d.toInt) : d.toInt.toNat = d.toNat := by
  have hc := BitVec.toInt_eq_toNat_cond d
  have hlt : d.toNat < 2 ^ 32 := d.isLt
  by_cases hs : 2 * d.toNat < 2 ^ 32
  · rw [if_pos hs] at hc; omega
  · rw [if_neg hs] at hc; omega

/-- A word whose signed reading lies in [0, 64) is the word of that number. -/
theorem word_eq_of_range (d : BitVec 32) (h0 : 0 ≤ d.toInt) (h1 : d.toInt < 64) : d = BitVec.ofNat 32 d.toInt.toNat := by
  apply BitVec.eq_of_toNat_eq
  rw [BitVec.toNat_ofNat, toNat_of_nonneg d h0]
  have hlt : d.toNat < 2 ^ 32 := d.isLt
  omega

/-- THE LAW THAT JOINS THE TWO SIDES: for a word that is a bucket number the weighted sum over the buckets is the one
    term at that bucket. -/
theorem sum_weight (x : Fin 64 → EReal) (d : BitVec 32) (h0 : 0 ≤ d.toInt) (h1 : d.toInt < 64) :
    ∑ k : Fin 64, x k * weight d k = x ⟨d.toInt.toNat, by omega⟩ := by
  refine Cert.Spec.sum_indicator x (weight d) ⟨d.toInt.toNat, by omega⟩ ?_ ?_
  · rw [weight_eq, if_pos (word_eq_of_range d h0 h1)]
  · intro k hk
    rw [weight_eq, if_neg]
    intro he
    apply hk
    apply Fin.ext
    show k.val = d.toInt.toNat
    rw [toNat_of_nonneg d h0, he, BitVec.toNat_ofNat]
    have hk64 : k.val < 64 := k.isLt
    omega

end Cert.KernelIdeal.Gather

end
-- ==== Proof.GatherArray.lean ====
/-
  THE GATHER KERNEL'S WHOLE RESULT ARRAY. The second pallas_call walks 32 row tiles: at tile t it reads rows 32t … 32t+31
  of the array `a` (all of its other axes) and of the table, and writes rows 32t … 32t+31 of the result. Each stored
  block is the same function of the block's entries (the weighted sum over the buckets), so what tile t writes back is
  block t of ONE whole-array function `whole a dist`; the 32 tiles cover all 1024 rows, so the array ends at it.
-/
import proofs.«425957_j10582799417497_1_alg».proof.Proof.Gen.KernelIdeal.Frame
import proofs.«425957_j10582799417497_1_alg».proof.Proof.GatherBlock
import Idealize.ShloMosaic.Lib.Pipeline.Value

set_option maxRecDepth 16384

noncomputable section

namespace Cert.KernelIdeal.Gather

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

/-- Entry (b, g, n, j) of the whole result: the sum over the buckets of a[b, g, n, k] times the weight of bucket k for
    the table's word at (n, j). -/
def whole (a : Vec Ideal S8x8x1024x64 .f32) (dist : Vec Ideal S1024x1024 .i32) : Vec Ideal S8x8x1024x1024 .f32 :=
  fun i => ∑ k : Fin 64, a (ix4 (n0 := 8) (n1 := 8) (n2 := 1024) (n3 := 64) (i 0) (i 1) (i 2) k)
    * weight (dist (ix2 (n0 := 1024) (n1 := 1024) (i 2) (i 3))) k

theorem whole_apply (a : Vec Ideal S8x8x1024x64 .f32) (dist : Vec Ideal S1024x1024 .i32) (b g : Fin 8) (n j : Fin 1024) :
    whole a dist (ix4 b g n j) = ∑ k : Fin 64, a (ix4 b g n k) * weight (dist (ix2 n j)) k := rfl

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The printed index maps over the 32 tiles: each window moves along its row axis with the tile and stays at block 0
    on every other axis. -/
theorem index_facts : ∀ t : Fin cfg1.N,
    win1_0.index t (0 : Fin 4) = 0 ∧ win1_0.index t (1 : Fin 4) = 0 ∧ win1_0.index t (2 : Fin 4) = t.val ∧ win1_0.index t (3 : Fin 4) = 0
    ∧ win1_1.index t (0 : Fin 2) = t.val ∧ win1_1.index t (1 : Fin 2) = 0
    ∧ win1_2.index t (0 : Fin 4) = 0 ∧ win1_2.index t (1 : Fin 4) = 0 ∧ win1_2.index t (2 : Fin 4) = t.val ∧ win1_2.index t (3 : Fin 4) = 0 :=
  (by decide +kernel : ∀ t : Fin grid1.N, _)

/-- Tile t's block of `a`, entry (b, g, r, k): the array at row 32t + r. -/
theorem a_block (c : Dev nD) (t : Fin cfg1.N) (b g : Fin 8) (r : Fin 32) (k : Fin 64) :
    iblk1 V c 0 t (ix4 b g r k)
      = V c main_v1 (ix4 b g (⟨t.val * 32 + r.val, by have := t.isLt; have : t.val < 32 := this; omega⟩ : Fin 1024) k) := by
  show V c main_v1 (((cfg1.win 0).blk t).view.emb (ix4 b g r k)) = _
  refine congrArg (V c main_v1) (funext fun a => Fin.ext ?_)
  obtain ⟨e0, e1, e2, e3, -⟩ := index_facts t
  match a with
  | ⟨0, _⟩ => show win1_0.index t (0 : Fin 4) * 8 + 1 * b.val = b.val; omega
  | ⟨1, _⟩ => show win1_0.index t (1 : Fin 4) * 8 + 1 * g.val = g.val; omega
  | ⟨2, _⟩ => show win1_0.index t (2 : Fin 4) * 32 + 1 * r.val = t.val * 32 + r.val; omega
  | ⟨3, _⟩ => show win1_0.index t (3 : Fin 4) * 64 + 1 * k.val = k.val; omega

/-- Tile t's block of the table, entry (r, j): the table at row 32t + r. -/
theorem dist_block (c : Dev nD) (t : Fin cfg1.N) (r : Fin 32) (j : Fin 1024) :
    iblk1 V c 1 t (ix2 r j)
      = V c main_arg3 (ix2 (⟨t.val * 32 + r.val, by have := t.isLt; have : t.val < 32 := this; omega⟩ : Fin 1024) j) := by
  show V c main_arg3 (((cfg1.win 1).blk t).view.emb (ix2 r j)) = _
  refine congrArg (V c main_arg3) (funext fun a => Fin.ext ?_)
  obtain ⟨-, -, -, -, e4, e5, -⟩ := index_facts t
  match a with
  | ⟨0, _⟩ => show win1_1.index t (0 : Fin 2) * 32 + 1 * r.val = t.val * 32 + r.val; omega
  | ⟨1, _⟩ => show win1_1.index t (1 : Fin 2) * 1024 + 1 * j.val = j.val; omega

/-- Where tile t's output block sits in the result: entry (b, g, r, j) of the block is entry (b, g, 32t + r, j). -/
theorem out_emb (t : Fin cfg1.N) (b g : Fin 8) (r : Fin 32) (j : Fin 1024) :
    ((cfg1.win 2).blk t).view.emb (ix4 b g r j)
      = ix4 b g (⟨t.val * 32 + r.val, by have := t.isLt; have : t.val < 32 := this; omega⟩ : Fin 1024) j := by
  refine funext fun a => Fin.ext ?_
  obtain ⟨-, -, -, -, -, -, e6, e7, e8, e9⟩ := index_facts t
  match a with
  | ⟨0, _⟩ => show win1_2.index t (0 : Fin 4) * 8 + 1 * b.val = b.val; omega
  | ⟨1, _⟩ => show win1_2.index t (1 : Fin 4) * 8 + 1 * g.val = g.val; omega
  | ⟨2, _⟩ => show win1_2.index t (2 : Fin 4) * 32 + 1 * r.val = t.val * 32 + r.val; omega
  | ⟨3, _⟩ => show win1_2.index t (3 : Fin 4) * 1024 + 1 * j.val = j.val; omega

/-- WHAT TILE t WRITES BACK is block t of `whole` of the two arrays as the region finds them. -/
theorem flushed_eq (c : Dev nD) (t : Fin cfg1.N) :
    (dat1 V c).flushed 2 t = ((cfg1.win 2).blk t).view.read (Elt Ideal) (whole (V c main_v1) (V c main_arg3)) := by
  show (cfg1.win 2).cut (grid1.coords t) ((dat1 V c).after 2 t) = _
  rw [after1_2]
  unfold out1_2
  rw [View.canon_unit_zero hz4]
  simp only [View.ld_unit_zero (S := S8x8x32x64) hz4, View.ld_unit_zero (S := S32x1024) hz2]
  refine funext fun (y : S8x8x32x1024.Idx) => ?_
  obtain ⟨b, g, r, j, rfl⟩ : ∃ (b g : Fin 8) (r : Fin 32) (j : Fin 1024), y = ix4 b g r j := ⟨y 0, y 1, y 2, y 3, eq_ix4 y⟩
  show k1_pay1 (F := Ideal) (iblk1 V c 0 t) (iblk1 V c 1 t) (ix4 b g r j)
    = whole (V c main_v1) (V c main_arg3) (((cfg1.win 2).blk t).view.emb (ix4 b g r j))
  rw [stored_apply, out_emb, whole_apply, dist_block]
  exact Finset.sum_congr rfl fun k _ => by rw [a_block]

/-- An index of the result is in tile t's block iff each coordinate is in the block's range on its axis. -/
theorem mem_blk (t : Fin cfg1.N) (i : S8x8x1024x1024.Idx) :
    i ∈ ((cfg1.win 2).blk t).view.set ↔ ∀ a : Fin 4, win1_2.index t a * S8x8x32x1024.size a ≤ (i a).val
      ∧ (i a).val < win1_2.index t a * S8x8x32x1024.size a + S8x8x32x1024.size a := by
  show i ∈ ((View.whole main_v2).slice (win1_2.rect t)).set ↔ _
  rw [View.set_slice_whole, Rect.mem_set_unit]
  exact Iff.rfl

/-- Every index of the result lies in the block of the tile that holds its row. -/
theorem covered (i : S8x8x1024x1024.Idx) :
    ∃ t : Fin cfg1.N, (cfg1.win 2).flush t = true ∧ i ∈ ((cfg1.win 2).blk t).view.set := by
  have h0 : (i 0).val < 8 := (i 0).isLt
  have h1 : (i 1).val < 8 := (i 1).isLt
  have h2 : (i 2).val < 1024 := (i 2).isLt
  have h3 : (i 3).val < 1024 := (i 3).isLt
  refine ⟨(⟨(i 2).val / 32, by show (i 2).val / 32 < 32; omega⟩ : Fin cfg1.N), flush1_2 _, ?_⟩
  rw [mem_blk]
  obtain ⟨-, -, -, -, -, -, e6, e7, e8, e9⟩ := index_facts (⟨(i 2).val / 32, by show (i 2).val / 32 < 32; omega⟩ : Fin cfg1.N)
  intro a
  match a with
  | ⟨0, _⟩ => show win1_2.index _ (0 : Fin 4) * 8 ≤ (i 0).val ∧ (i 0).val < win1_2.index _ (0 : Fin 4) * 8 + 8; omega
  | ⟨1, _⟩ => show win1_2.index _ (1 : Fin 4) * 8 ≤ (i 1).val ∧ (i 1).val < win1_2.index _ (1 : Fin 4) * 8 + 8; omega
  | ⟨2, _⟩ => show win1_2.index _ (2 : Fin 4) * 32 ≤ (i 2).val ∧ (i 2).val < win1_2.index _ (2 : Fin 4) * 32 + 32; simp only at e8; omega
  | ⟨3, _⟩ => show win1_2.index _ (3 : Fin 4) * 1024 ≤ (i 3).val ∧ (i 3).val < win1_2.index _ (3 : Fin 4) * 1024 + 1024; omega

/-- THE RESULT ARRAY after the second pallas_call, from any entry contents `V`. -/
theorem array_eq (c : Dev nD) : (dat1 V c).arrAt 2 cfg1.N = whole (V c main_v1) (V c main_arg3) :=
  (dat1 V c).arrAt_eq_of_cover 2 (whole (V c main_v1) (V c main_arg3)) (fun t _ => flushed_eq V c t) covered

end Cert.KernelIdeal.Gather

end
-- ==== Proof.KernelValue.lean ====
/-
  THE KERNEL'S RESULT as one function of the argument arrays. Between the two pallas_calls @main reshapes the product
  array [8, 1024, 512] row-major to [8, 8, 1024, 64]: the same reshape the reference applies to its own product, so the
  array the second call reads is the reference's reshaped product stage; the table reaches the second call as launched.
  The second call's result is the weighted sum over the buckets, and for a table of bucket numbers each sum is its one
  term at the table's bucket: the selection both programs compute.
-/
import proofs.«425957_j10582799417497_1_alg».proof.Proof.KernelRun
import proofs.«425957_j10582799417497_1_alg».proof.Proof.GemmArray
import proofs.«425957_j10582799417497_1_alg».proof.Proof.GatherArray
import Idealize.ShloMosaic.Lib.StableHlo.Run

set_option maxRecDepth 16384

noncomputable section

namespace Cert.KernelIdeal.Whole

open Cert.KernelIdeal Cert.KernelIdeal.Gen Cert.KernelIdeal.GenP Idealize.ShloMosaic Idealize.ShloMosaic.TcCoe
open Idealize.ShloMosaic.ValueIdx Idealize.ShloMosaic.StableHlo
open Idealize.SL Idealize.SL.Sem

variable (m : (ℓ : Loc nD τ sig) → Buf (Elt Ideal) ℓ) (ρ : Dev nD → PrngReg)

/-- The product array when the first call has returned: the reference's product stage of the launch arrays. -/
theorem product_exit (c : Dev nD) :
    W1 m ρ c (Proc.devRef .tc main_v0)
      = Cert.ReferenceIdeal.ReadP.val_main_v6 (F := Ideal) (m ((c : Thread nD τ).loc main_arg0)) (m ((c : Thread nD τ).loc main_arg1))
          (m ((c : Thread nD τ).loc main_arg2)) :=
  (W1_arr m ρ c 3).trans (Gemm.array_eq (V0 m ρ) c)

/-- The array the second call reads: the product reshaped row-major, which is the reference's reshaped product stage. -/
theorem a_entry (c : Dev nD) :
    V2 m ρ c main_v1
      = Cert.ReferenceIdeal.ReadP.val_main_v7 (F := Ideal) (m ((c : Thread nD τ).loc main_arg0)) (m ((c : Thread nD τ).loc main_arg1))
          (m ((c : Thread nD τ).loc main_arg2)) := by
  show StableHlo.after hostOps1 (W1 m ρ c) (Proc.devRef .tc main_v1) = _
  after_results
  rw [product_exit]
  rfl

/-- The table the second call reads is the table as launched. -/
theorem table_entry (c : Dev nD) : V2 m ρ c main_arg3 = m ((c : Thread nD τ).loc main_arg3) := by
  show StableHlo.after hostOps1 (W1 m ρ c) (Proc.devRef .tc main_arg3) = _
  after_results
  exact W1_of_ne m ρ c main_arg3 (by decide)

/-- THE RESULT ARRAY at the end of @main, for a table of bucket numbers: the selection from the reference's reshaped
    product stage. -/
theorem result_eq (c : Dev nD) (h : Cert.Spec.InRange (m ((c : Thread nD τ).loc main_arg3))) :
    W3 m ρ c (Proc.devRef .tc main_v2)
      = Cert.Spec.take (Cert.ReferenceIdeal.ReadP.val_main_v7 (F := Ideal) (m ((c : Thread nD τ).loc main_arg0)) (m ((c : Thread nD τ).loc main_arg1))
          (m ((c : Thread nD τ).loc main_arg2))) (m ((c : Thread nD τ).loc main_arg3)) h := by
  rw [W3_result, Gather.array_eq, a_entry, table_entry]
  funext i
  obtain ⟨b, g, n, j, rfl⟩ : ∃ (b g : Fin 8) (n j : Fin 1024), i = ix4 b g n j := ⟨i 0, i 1, i 2, i 3, eq_ix4 i⟩
  rw [Gather.whole_apply, Cert.Spec.take_apply]
  exact Gather.sum_weight (fun k => Cert.ReferenceIdeal.ReadP.val_main_v7 (F := Ideal) (m ((c : Thread nD τ).loc main_arg0))
    (m ((c : Thread nD τ).loc main_arg1)) (m ((c : Thread nD τ).loc main_arg2)) (ix4 b g n k)) _ (h n j).1 (h n j).2

end Cert.KernelIdeal.Whole

end
-- ==== Proof.lean ====
/-
  The certificate of a relative-position lookup: out[b, g, n, j] = A[b, g, n, dist[n, j]], where A is the product
  (mesh[n] - keypoints[b]) · W of shape [8, 1024, 512] reshaped row-major to [8, 8, 1024, 64] and dist is a table of
  bucket numbers (32-bit words whose signed reading lies in [0, 64): the precondition, beside the finiteness of the float
  inputs).

  The kernel makes A in one pallas_call (a product into a zero accumulator), and the lookup in a second one over 32 row
  tiles as a product with the table's indicator weights: out = sum over the 64 buckets k of A[b, g, n, k] · [dist[n, j] = k].
  The reference makes the same A by a dot_general and takes the entries by jnp.take_along_axis, which moves negative
  indices up by 64, gathers at the clamped index and fills a NaN where the index is out of range: for bucket numbers none of
  that acts. On the extended reals x · 1 = x and x · 0 = 0 for every x, so each weighted sum is its one term at the table's
  bucket, and the two results are one array (Proof/KernelValue.lean for the kernel, Proof/RefTake.lean for the reference,
  Proof/PreRange.lean for what the precondition says of the table).

  The three frames are the generated ones (the reference's is its run with the result dropped); nothing was rewritten
  when the kernel was idealized, so the sanctioned-idealization conjunct is trivial.
-/
import proofs.«425957_j10582799417497_1_alg».proof.Defs
import proofs.«425957_j10582799417497_1_alg».proof.Proof.Gen.Kernel
import proofs.«425957_j10582799417497_1_alg».proof.Proof.Gen.Kernel.Skeleton
import proofs.«425957_j10582799417497_1_alg».proof.Proof.Gen.Kernel.Launch
import proofs.«425957_j10582799417497_1_alg».proof.Proof.Gen.Kernel.Points
import proofs.«425957_j10582799417497_1_alg».proof.Proof.Gen.Kernel.Frame
import proofs.«425957_j10582799417497_1_alg».proof.Proof.Gen.KernelIdeal
import proofs.«425957_j10582799417497_1_alg».proof.Proof.Gen.KernelIdeal.Skeleton
import proofs.«425957_j10582799417497_1_alg».proof.Proof.Gen.KernelIdeal.Launch
import proofs.«425957_j10582799417497_1_alg».proof.Proof.Gen.KernelIdeal.Points
import proofs.«425957_j10582799417497_1_alg».proof.Proof.Gen.KernelIdeal.Frame
import proofs.«425957_j10582799417497_1_alg».proof.Proof.Gen.ReferenceIdeal
import proofs.«425957_j10582799417497_1_alg».proof.Proof.Gen.Pre_finite_inputs
import proofs.«425957_j10582799417497_1_alg».proof.Proof.RefRun
import proofs.«425957_j10582799417497_1_alg».proof.Proof.RefRead
import proofs.«425957_j10582799417497_1_alg».proof.Proof.RefTake
import proofs.«425957_j10582799417497_1_alg».proof.Proof.PreRange
import proofs.«425957_j10582799417497_1_alg».proof.Proof.KernelRun
import proofs.«425957_j10582799417497_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- Both programs end with the selection from the reference's reshaped product, of arguments that agree. -/
theorem algebraic : Cert.algebraic_KernelIdeal_ReferenceIdeal := by
  intro m ρ m' ρ' hpre hagree
  -- the precondition makes the table a table of bucket numbers, on every device
  have hr : ∀ c : Dev Cert.KernelIdeal.nD, Cert.Spec.InRange
      (m ((c.tc : Thread Cert.KernelIdeal.nD Cert.KernelIdeal.τ).loc Cert.KernelIdeal.main_arg3)) :=
    fun c => Cert.PreRange.inRange_of_pre _ _ _ _ (hpre c)
  refine ⟨fun c => Cert.Spec.take (Cert.ReferenceIdeal.ReadP.val_main_v7 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)))
      (m ((c.tc : Thread Cert.KernelIdeal.nD Cert.KernelIdeal.τ).loc Cert.KernelIdeal.main_arg3)) (hr c), ?_, ?_⟩
  · exact (θ_run Cert.KernelIdeal.defs _ _).mono
      (fun _ h c => ⟨(h c).1.trans (Cert.KernelIdeal.Whole.result_eq m ρ c (hr c)), (h c).2⟩)
      (Cert.KernelIdeal.GenP.run_value (F := Ideal) m ρ)
  · refine (θ_run Cert.ReferenceIdeal.defs _ _).mono (fun _ h c => ⟨(h c).1.trans ?_, (h c).2⟩)
      (Cert.ReferenceIdeal.RunP.run (F := Ideal) m' ρ')
    rw [Cert.ReferenceIdeal.ReadP.val_main_v10_eq, (hagree c).1, (hagree c).2.1, (hagree c).2.2.1, (hagree c).2.2.2]
    exact Cert.ReferenceIdeal.Take.result_eq_take _ _ _ _ (hr c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
